-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x1024 : Shape := ⟨3, ![8, 8192, 1024]⟩
abbrev S1024 : Shape := ⟨1, ![1024]⟩
abbrev S64x64x64 : Shape := ⟨3, ![64, 64, 64]⟩
abbrev S64 : Shape := ⟨1, ![64]⟩
abbrev S64x64 : Shape := ⟨2, ![64, 64]⟩
abbrev S_ : Shape := ⟨0, ![]⟩

class Facts : Prop where
  bcast_S64_S64x64_0 : S64.BroadcastsInDim S64x64 (![0] : Fin 1 → Fin S64x64.rank)
  bcast_S64_S64x64_1 : S64.BroadcastsInDim S64x64 (![1] : Fin 1 → Fin S64x64.rank)
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S64x64x64 : S_.BroadcastsInDim S64x64x64 (![] : Fin 0 → Fin S64x64x64.rank)
  reducesTo_S64x64x64_S_d0_1_2 : S64x64x64.ReducesTo [0, 1, 2] S_
  bcast_S_S1024 : S_.BroadcastsInDim S1024 (![] : Fin 0 → Fin S1024.rank)
  reducesTo_S1024_S_d0 : S1024.ReducesTo [0] S_
  bcast_S_S64 : S_.BroadcastsInDim S64 (![] : Fin 0 → Fin S64.rank)
  reducesTo_S64_S_d0 : S64.ReducesTo [0] S_
  reducesTo_S64x64_S_d0_1 : S64x64.ReducesTo [0, 1] S_

variable [Facts]

def fn_part3 {F : FTy → Type} [FloatOps F] (main_v0 : IVec S64x64 32) (main_v1 : IVec S64x64 32) (main_v2 : IVec S64x64 32) (main_v3 : IVec S64x64 32) (main_v4 : IVec S64x64 32) (main_v5 : IVec S64x64 32) (main_v47 : IVec S_ 1) (main_v49 : IVec S64 1) (main_c_19 : IVec S_ 1) : IVec S_ 1 :=
  let main_v50 : IVec S_ 1 := (fun x v => Host.reduce IntOp.andi x v reducesTo_S64_S_d0 h_S_) main_v49 main_c_19
  let main_v51 : IVec S_ 1 := andi main_v47 main_v50
  let main_v52 : IVec S64x64 1 := cmpi .ne main_v0 main_v1
  let main_v53 : IVec S64x64 1 := cmpi .ne main_v2 main_v3
  let main_v54 : IVec S64x64 1 := ori main_v52 main_v53
  let main_v55 : IVec S64x64 1 := cmpi .eq main_v4 main_v5
  let main_v56 : IVec S64x64 1 := ori main_v54 main_v55
  let main_c_20 : IVec S_ 1 := constantI S_ 1 1#1
  let main_v57 : IVec S_ 1 := (fun x v => Host.reduce IntOp.andi x v reducesTo_S64x64_S_d0_1 h_S_) main_v56 main_c_20
  let main_v58 : IVec S_ 1 := andi main_v51 main_v57
  main_v58

def fn_part2 {F : FTy → Type} [FloatOps F] (main_arg4 : IVec S64 32) (main_arg5 : IVec S64 32) (main_v0 : IVec S64x64 32) (main_v1 : IVec S64x64 32) (main_v2 : IVec S64x64 32) (main_v3 : IVec S64x64 32) (main_v4 : IVec S64x64 32) (main_v5 : IVec S64x64 32) (main_v31 : IVec S_ 1) (main_v33 : IVec S1024 1) (main_c_11 : IVec S_ 1) : IVec S_ 1 :=
  let main_v34 : IVec S_ 1 := (fun x v => Host.reduce IntOp.andi x v reducesTo_S1024_S_d0 h_S_) main_v33 main_c_11
  let main_v35 : IVec S_ 1 := andi main_v31 main_v34
  let main_c_12 : IVec S_ 32 := constantI S_ 32 0#32
  let main_v36 : IVec S64 32 := broadcastInDim S64 ![] bcast_S_S64 main_c_12
  let main_v37 : IVec S64 1 := cmpi .sge main_arg4 main_v36
  let main_c_13 : IVec S_ 1 := constantI S_ 1 1#1
  let main_v38 : IVec S_ 1 := (fun x v => Host.reduce IntOp.andi x v reducesTo_S64_S_d0 h_S_) main_v37 main_c_13
  let main_v39 : IVec S_ 1 := andi main_v35 main_v38
  let main_c_14 : IVec S_ 32 := constantI S_ 32 16#32
  let main_v40 : IVec S64 32 := broadcastInDim S64 ![] bcast_S_S64 main_c_14
  let main_v41 : IVec S64 1 := cmpi .slt main_arg4 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v39 main_v42
  let main_c_16 : IVec S_ 32 := constantI S_ 32 0#32
  let main_v44 : IVec S64 32 := broadcastInDim S64 ![] bcast_S_S64 main_c_16
  let main_v45 : IVec S64 1 := cmpi .sge main_arg5 main_v44
  let main_c_17 : IVec S_ 1 := constantI S_ 1 1#1
  let main_v46 : IVec S_ 1 := (fun x v => Host.reduce IntOp.andi x v reducesTo_S64_S_d0 h_S_) main_v45 main_c_17
  let main_v47 : IVec S_ 1 := andi main_v43 main_v46
  let main_c_18 : IVec S_ 32 := constantI S_ 32 16#32
  let main_v48 : IVec S64 32 := broadcastInDim S64 ![] bcast_S_S64 main_c_18
  let main_v49 : IVec S64 1 := cmpi .slt main_arg5 main_v48
  let main_c_19 : IVec S_ 1 := constantI S_ 1 1#1
  fn_part3 (F := F) main_v0 main_v1 main_v2 main_v3 main_v4 main_v5 main_v47 main_v49 main_c_19

def fn_part1 {F : FTy → Type} [FloatOps F] (main_arg1 : IVec S1024 32) (main_arg2 : IVec S1024 32) (main_arg4 : IVec S64 32) (main_arg5 : IVec S64 32) (main_v0 : IVec S64x64 32) (main_v1 : IVec S64x64 32) (main_v2 : IVec S64x64 32) (main_v3 : IVec S64x64 32) (main_v4 : IVec S64x64 32) (main_v5 : IVec S64x64 32) (main_v14 : IVec S_ 1) (main_v17 : IVec S1024 1) (main_c_3 : IVec S_ 1) : IVec S_ 1 :=
  let main_v18 : IVec S_ 1 := (fun x v => Host.reduce IntOp.andi x v reducesTo_S1024_S_d0 h_S_) main_v17 main_c_3
  let main_v19 : IVec S_ 1 := andi main_v14 main_v18
  let main_c_4 : IVec S_ 32 := constantI S_ 32 0#32
  let main_v20 : IVec S1024 32 := broadcastInDim S1024 ![] bcast_S_S1024 main_c_4
  let main_v21 : IVec S1024 1 := cmpi .sge main_arg1 main_v20
  let main_c_5 : IVec S_ 1 := constantI S_ 1 1#1
  let main_v22 : IVec S_ 1 := (fun x v => Host.reduce IntOp.andi x v reducesTo_S1024_S_d0 h_S_) main_v21 main_c_5
  let main_v23 : IVec S_ 1 := andi main_v19 main_v22
  let main_c_6 : IVec S_ 32 := constantI S_ 32 1024#32
  let main_v24 : IVec S1024 32 := broadcastInDim S1024 ![] bcast_S_S1024 main_c_6
  let main_v25 : IVec S1024 1 := cmpi .slt main_arg1 main_v24
  let main_c_7 : IVec S_ 1 := constantI S_ 1 1#1
  let main_v26 : IVec S_ 1 := (fun x v => Host.reduce IntOp.andi x v reducesTo_S1024_S_d0 h_S_) main_v25 main_c_7
  let main_v27 : IVec S_ 1 := andi main_v23 main_v26
  let main_c_8 : IVec S_ 32 := constantI S_ 32 0#32
  let main_v28 : IVec S1024 32 := broadcastInDim S1024 ![] bcast_S_S1024 main_c_8
  let main_v29 : IVec S1024 1 := cmpi .sge main_arg2 main_v28
  let main_c_9 : IVec S_ 1 := constantI S_ 1 1#1
  let main_v30 : IVec S_ 1 := (fun x v => Host.reduce IntOp.andi x v reducesTo_S1024_S_d0 h_S_) main_v29 main_c_9
  let main_v31 : IVec S_ 1 := andi main_v27 main_v30
  let main_c_10 : IVec S_ 32 := constantI S_ 32 1024#32
  let main_v32 : IVec S1024 32 := broadcastInDim S1024 ![] bcast_S_S1024 main_c_10
  let main_v33 : IVec S1024 1 := cmpi .slt main_arg2 main_v32
  let main_c_11 : IVec S_ 1 := constantI S_ 1 1#1
  fn_part2 (F := F) main_arg4 main_arg5 main_v0 main_v1 main_v2 main_v3 main_v4 main_v5 main_v31 main_v33 main_c_11

def fn {F : FTy → Type} [FloatOps F] (main_arg0 : FVec F S8x8192x1024 .f32) (main_arg1 : IVec S1024 32) (main_arg2 : IVec S1024 32) (main_arg3 : FVec F S64x64x64 .f32) (main_arg4 : IVec S64 32) (main_arg5 : IVec S64 32) (main_arg6 : FVec F S1024 .f32) : IVec S_ 1 :=
  let main_v0 : IVec S64x64 32 := broadcastInDim S64x64 ![0] bcast_S64_S64x64_0 main_arg4
  let main_v1 : IVec S64x64 32 := broadcastInDim S64x64 ![1] bcast_S64_S64x64_1 main_arg4
  let main_v2 : IVec S64x64 32 := broadcastInDim S64x64 ![0] bcast_S64_S64x64_0 main_arg5
  let main_v3 : IVec S64x64 32 := broadcastInDim S64x64 ![1] bcast_S64_S64x64_1 main_arg5
  let main_v4 : IVec S64x64 32 := iotaInDim S64x64 32 0
  let main_v5 : IVec S64x64 32 := iotaInDim S64x64 32 1
  let main_v6 : FVec F S8x8192x1024 .f32 := Host.absf main_arg0
  let main_cst : FVec F S_ .f32 := constant S_ .f32 0x7F800000#32
  let main_v7 : FVec F S8x8192x1024 .f32 := broadcastInDim S8x8192x1024 ![] bcast_S_S8x8192x1024 main_cst
  let main_v8 : IVec S8x8192x1024 1 := cmpf .olt main_v6 main_v7
  let main_c : IVec S_ 1 := constantI S_ 1 1#1
  let main_v9 : IVec S_ 1 := (fun x v => Host.reduce IntOp.andi x v reducesTo_S8x8192x1024_S_d0_1_2 h_S_) main_v8 main_c
  let main_v10 : FVec F S64x64x64 .f32 := Host.absf main_arg3
  let main_cst_0 : FVec F S_ .f32 := constant S_ .f32 0x7F800000#32
  let main_v11 : FVec F S64x64x64 .f32 := broadcastInDim S64x64x64 ![] bcast_S_S64x64x64 main_cst_0
  let main_v12 : IVec S64x64x64 1 := cmpf .olt main_v10 main_v11
  let main_c_1 : IVec S_ 1 := constantI S_ 1 1#1
  let main_v13 : IVec S_ 1 := (fun x v => Host.reduce IntOp.andi x v reducesTo_S64x64x64_S_d0_1_2 h_S_) main_v12 main_c_1
  let main_v14 : IVec S_ 1 := andi main_v9 main_v13
  let main_v15 : FVec F S1024 .f32 := Host.absf main_arg6
  let main_cst_2 : FVec F S_ .f32 := constant S_ .f32 0x7F800000#32
  let main_v16 : FVec F S1024 .f32 := broadcastInDim S1024 ![] bcast_S_S1024 main_cst_2
  let main_v17 : IVec S1024 1 := cmpf .olt main_v15 main_v16
  let main_c_3 : IVec S_ 1 := constantI S_ 1 1#1
  fn_part1 (F := F) main_arg1 main_arg2 main_arg4 main_arg5 main_v0 main_v1 main_v2 main_v3 main_v4 main_v5 main_v14 main_v17 main_c_3
-- ==== Kernel.lean ====
abbrev S8x8192x1024 : Shape := ⟨3, ![8, 8192, 1024]⟩
abbrev S1024 : Shape := ⟨1, ![1024]⟩
abbrev S64x64x64 : Shape := ⟨3, ![64, 64, 64]⟩
abbrev S64 : Shape := ⟨1, ![64]⟩
abbrev S64x4096 : Shape := ⟨2, ![64, 4096]⟩
abbrev S_ : Shape := ⟨0, ![]⟩
abbrev S256x64 : Shape := ⟨2, ![256, 64]⟩
abbrev S1x64 : Shape := ⟨2, ![1, 64]⟩
abbrev S256x4096 : Shape := ⟨2, ![256, 4096]⟩
abbrev S16x16x64x64 : Shape := ⟨4, ![16, 16, 64, 64]⟩
abbrev S16x64x16x64 : Shape := ⟨4, ![16, 64, 16, 64]⟩
abbrev S1024x1024 : Shape := ⟨2, ![1024, 1024]⟩
abbrev S1x1024 : Shape := ⟨2, ![1, 1024]⟩
abbrev S65536x1024 : Shape := ⟨2, ![65536, 1024]⟩

abbrev nBuf : Space → Nat
  | .hbm => 40
  | .vmem => 6
  | .smem => 0
  | _ => 0

abbrev bufTy : (tb : Table) → Fin (tcTables nBuf tb) → BufTy
  | .hbm, ⟨0, _⟩ => ⟨S8x8192x1024, .f32⟩
  | .hbm, ⟨1, _⟩ => ⟨S1024, .i32⟩
  | .hbm, ⟨2, _⟩ => ⟨S1024, .i32⟩
  | .hbm, ⟨3, _⟩ => ⟨S64x64x64, .f32⟩
  | .hbm, ⟨4, _⟩ => ⟨S64, .i32⟩
  | .hbm, ⟨5, _⟩ => ⟨S64, .i32⟩
  | .hbm, ⟨6, _⟩ => ⟨S1024, .f32⟩
  | .hbm, ⟨7, _⟩ => ⟨S64x4096, .f32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S256x64, .i32⟩
  | .hbm, ⟨13, _⟩ => ⟨S1x64, .i32⟩
  | .hbm, ⟨14, _⟩ => ⟨S256x64, .i32⟩
  | .hbm, ⟨15, _⟩ => ⟨S256x64, .i1⟩
  | .hbm, ⟨16, _⟩ => ⟨S256x64, .f32⟩
  | .hbm, ⟨17, _⟩ => ⟨S256x4096, .f32⟩
  | .hbm, ⟨18, _⟩ => ⟨S16x16x64x64, .f32⟩
  | .hbm, ⟨19, _⟩ => ⟨S16x64x16x64, .f32⟩
  | .hbm, ⟨20, _⟩ => ⟨S1024x1024, .f32⟩
  | .hbm, ⟨21, _⟩ => ⟨S1024x1024, .f32⟩
  | .hbm, ⟨22, _⟩ => ⟨S1024x1024, .i32⟩
  | .hbm, ⟨23, _⟩ => ⟨S1x1024, .i32⟩
  | .hbm, ⟨24, _⟩ => ⟨S1024x1024, .i32⟩
  | .hbm, ⟨25, _⟩ => ⟨S1024x1024, .i1⟩
  | .hbm, ⟨26, _⟩ => ⟨S1024x1024, .f32⟩
  | .hbm, ⟨27, _⟩ => ⟨S1024x1024, .f32⟩
  | .hbm, ⟨28, _⟩ => ⟨S1024x1024, .i32⟩
  | .hbm, ⟨29, _⟩ => ⟨S1x1024, .i32⟩
  | .hbm, ⟨30, _⟩ => ⟨S1024x1024, .i32⟩
  | .hbm, ⟨31, _⟩ => ⟨S1024x1024, .i1⟩
  | .hbm, ⟨32, _⟩ => ⟨S1024x1024, .f32⟩
  | .hbm, ⟨33, _⟩ => ⟨S1024x1024, .f32⟩
  | .hbm, ⟨34, _⟩ => ⟨S1x1024, .f32⟩
  | .hbm, ⟨35, _⟩ => ⟨S1x1024, .f32⟩
  | .hbm, ⟨36, _⟩ => ⟨S1024x1024, .bf16⟩
  | .hbm, ⟨37, _⟩ => ⟨S65536x1024, .f32⟩
  | .hbm, ⟨38, _⟩ => ⟨S65536x1024, .f32⟩
  | .hbm, ⟨39, _⟩ => ⟨S8x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_v19 : Ref sig .tc := ⟨.hbm, 27, rfl⟩
abbrev main_call0_v20 : Ref sig .tc := ⟨.hbm, 28, rfl⟩
abbrev main_call0_v21 : Ref sig .tc := ⟨.hbm, 29, rfl⟩
abbrev main_call0_v22 : Ref sig .tc := ⟨.hbm, 30, rfl⟩
abbrev main_call0_v23 : Ref sig .tc := ⟨.hbm, 31, rfl⟩
abbrev main_call0_v24 : Ref sig .tc := ⟨.hbm, 32, rfl⟩
abbrev main_call0_v25 : Ref sig .tc := ⟨.hbm, 33, rfl⟩
abbrev main_call0_v26 : Ref sig .tc := ⟨.hbm, 34, rfl⟩
abbrev main_call0_v27 : Ref sig .tc := ⟨.hbm, 35, rfl⟩
abbrev main_call0_v28 : Ref sig .tc := ⟨.hbm, 36, rfl⟩
abbrev main_call0_v29 : Ref sig .tc := ⟨.hbm, 37, rfl⟩
abbrev main_call0_v30 : Ref sig .tc := ⟨.hbm, 38, rfl⟩
abbrev main_v0 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x64x64_S64x4096 : S64x64x64.ShapeCasts S64x4096
  bcast_S_S64 : S_.BroadcastsInDim S64 (![] : Fin 0 → Fin S64.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  shapeCasts_S256x4096_S16x16x64x64 : S256x4096.ShapeCasts S16x16x64x64
  transposes_S16x16x64x64_S16x64x16x64_0_2_1_3 : S16x16x64x64.Transposes [0, 2, 1, 3] S16x64x16x64
  shapeCasts_S16x64x16x64_S1024x1024 : S16x64x16x64.ShapeCasts S1024x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bitsLt_bf16_f32 : FTy.bits .bf16 < FTy.bits .f32
  shapeCasts_S8x8192x1024_S65536x1024 : S8x8192x1024.ShapeCasts S65536x1024
  shapeCasts_S65536x1024_S8x8192x1024 : S65536x1024.ShapeCasts S8x8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S256x64_S64x4096_S256x4096_1_0_0_1_n_n_wf : DotDims.WF S256x64 S64x4096 S256x4096 [1] [0] [0] [1] [] []
  dot_S1024x1024_S1024x1024_S1024x1024_1_0_0_1_n_n_wf : DotDims.WF S1024x1024 S1024x1024 S1024x1024 [1] [0] [0] [1] [] []
  dot_S1x1024_S1024x1024_S1x1024_1_0_0_1_n_n_wf : DotDims.WF S1x1024 S1024x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S65536x1024.size a
  hwx0_3 : ∀ i : grid0.Coords, EltTy.bits .f32 = 32 ∨ (Rect.block (s := S65536x1024) S1024x1024.size (cc0_transform_3 i) (hinb0_3 i)).WholeWords (EltTy.packing .f32)

variable [Facts₀]

def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf

abbrev win0_0 : Pipeline.Window sig grid0 :=
  Pipeline.Window.ofSpec (Memref.whole main_call0_v29) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v28) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v27) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v30) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x8192x1024 : Shape := ⟨3, ![8, 8192, 1024]⟩
abbrev S1024 : Shape := ⟨1, ![1024]⟩
abbrev S64x64x64 : Shape := ⟨3, ![64, 64, 64]⟩
abbrev S64 : Shape := ⟨1, ![64]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S16x16x64x64 : Shape := ⟨4, ![16, 16, 64, 64]⟩
abbrev S64x1 : Shape := ⟨2, ![64, 1]⟩
abbrev S64x2 : Shape := ⟨2, ![64, 2]⟩
abbrev S16x64x16x64 : Shape := ⟨4, ![16, 64, 16, 64]⟩
abbrev S1024x1024 : Shape := ⟨2, ![1024, 1024]⟩
abbrev S1x1x1024 : Shape := ⟨3, ![1, 1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .i32⟩
  | .hbm, ⟨2, _⟩ => ⟨S1024, .i32⟩
  | .hbm, ⟨3, _⟩ => ⟨S64x64x64, .f32⟩
  | .hbm, ⟨4, _⟩ => ⟨S64, .i32⟩
  | .hbm, ⟨5, _⟩ => ⟨S64, .i32⟩
  | .hbm, ⟨6, _⟩ => ⟨S1024, .f32⟩
  | .hbm, ⟨7, _⟩ => ⟨S_, .i32⟩
  | .hbm, ⟨8, _⟩ => ⟨S1024, .i32⟩
  | .hbm, ⟨9, _⟩ => ⟨S1024, .i1⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S1024x1, .i32⟩
  | .hbm, ⟨15, _⟩ => ⟨S1, .i32⟩
  | .hbm, ⟨16, _⟩ => ⟨S_, .i32⟩
  | .hbm, ⟨17, _⟩ => ⟨S1024x1, .i32⟩
  | .hbm, ⟨18, _⟩ => ⟨S1024x1, .i1⟩
  | .hbm, ⟨19, _⟩ => ⟨S1x1, .i32⟩
  | .hbm, ⟨20, _⟩ => ⟨S1024x1, .i32⟩
  | .hbm, ⟨21, _⟩ => ⟨S1024x1, .i1⟩
  | .hbm, ⟨22, _⟩ => ⟨S1024x1, .i1⟩
  | .hbm, ⟨23, _⟩ => ⟨S_, .i1⟩
  | .hbm, ⟨24, _⟩ => ⟨S1024, .i1⟩
  | .hbm, ⟨25, _⟩ => ⟨S8x8192x1024, .f32⟩
  | .hbm, ⟨26, _⟩ => ⟨S8x8192x1024, .i1⟩
  | .hbm, ⟨27, _⟩ => ⟨S_, .f32⟩
  | .hbm, ⟨28, _⟩ => ⟨S8x8192x1024, .f32⟩
  | .hbm, ⟨29, _⟩ => ⟨S8x8192x1024, .f32⟩
  | .hbm, ⟨30, _⟩ => ⟨S_, .f32⟩
  | .hbm, ⟨31, _⟩ => ⟨S16x16x64x64, .f32⟩
  | .hbm, ⟨32, _⟩ => ⟨S_, .i32⟩
  | .hbm, ⟨33, _⟩ => ⟨S64, .i32⟩
  | .hbm, ⟨34, _⟩ => ⟨S64, .i1⟩
  | .hbm, ⟨35, _⟩ => ⟨S_, .i32⟩
  | .hbm, ⟨36, _⟩ => ⟨S64, .i32⟩
  | .hbm, ⟨37, _⟩ => ⟨S64, .i32⟩
  | .hbm, ⟨38, _⟩ => ⟨S64, .i32⟩
  | .hbm, ⟨39, _⟩ => ⟨S_, .i32⟩
  | .hbm, ⟨40, _⟩ => ⟨S64, .i32⟩
  | .hbm, ⟨41, _⟩ => ⟨S64, .i1⟩
  | .hbm, ⟨42, _⟩ => ⟨S_, .i32⟩
  | .hbm, ⟨43, _⟩ => ⟨S64, .i32⟩
  | .hbm, ⟨44, _⟩ => ⟨S64, .i32⟩
  | .hbm, ⟨45, _⟩ => ⟨S64, .i32⟩
  | .hbm, ⟨46, _⟩ => ⟨S64x1, .i32⟩
  | .hbm, ⟨47, _⟩ => ⟨S64x1, .i32⟩
  | .hbm, ⟨48, _⟩ => ⟨S64x2, .i32⟩
  | .hbm, ⟨49, _⟩ => ⟨S16x16x64x64, .f32⟩
  | .hbm, ⟨50, _⟩ => ⟨S16x64x16x64, .f32⟩
  | .hbm, ⟨51, _⟩ => ⟨S1024x1024, .f32⟩
  | .hbm, ⟨52, _⟩ => ⟨S8x8192x1024, .f32⟩
  | .hbm, ⟨53, _⟩ => ⟨S1x1x1024, .f32⟩
  | .hbm, ⟨54, _⟩ => ⟨S8x8192x1024, .f32⟩
  | .hbm, ⟨55, _⟩ => ⟨S8x8192x1024, .f32⟩
  | .hbm, ⟨56, _⟩ => ⟨S_, .i32⟩
  | .hbm, ⟨57, _⟩ => ⟨S1024, .i32⟩
  | .hbm, ⟨58, _⟩ => ⟨S1024, .i1⟩
  | .hbm, ⟨59, _⟩ => ⟨S_, .i32⟩
  | .hbm, ⟨60, _⟩ => ⟨S1024, .i32⟩
  | .hbm, ⟨61, _⟩ => ⟨S1024, .i32⟩
  | .hbm, ⟨62, _⟩ => ⟨S1024, .i32⟩
  | .hbm, ⟨63, _⟩ => ⟨S1024x1, .i32⟩
  | .hbm, ⟨64, _⟩ => ⟨S1, .i32⟩
  | .hbm, ⟨65, _⟩ => ⟨S_, .i32⟩
  | .hbm, ⟨66, _⟩ => ⟨S1024x1, .i32⟩
  | .hbm, ⟨67, _⟩ => ⟨S1024x1, .i1⟩
  | .hbm, ⟨68, _⟩ => ⟨S1x1, .i32⟩
  | .hbm, ⟨69, _⟩ => ⟨S1024x1, .i32⟩
  | .hbm, ⟨70, _⟩ => ⟨S1024x1, .i1⟩
  | .hbm, ⟨71, _⟩ => ⟨S1024x1, .i1⟩
  | .hbm, ⟨72, _⟩ => ⟨S_, .i1⟩
  | .hbm, ⟨73, _⟩ => ⟨S1024, .i1⟩
  | .hbm, ⟨74, _⟩ => ⟨S8x8192x1024, .f32⟩
  | .hbm, ⟨75, _⟩ => ⟨S8x8192x1024, .i1⟩
  | .hbm, ⟨76, _⟩ => ⟨S_, .f32⟩
  | .hbm, ⟨77, _⟩ => ⟨S8x8192x1024, .f32⟩
  | .hbm, ⟨78, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_cst : Ref sig .tc := ⟨.hbm, 30, rfl⟩
abbrev main_v1 : Ref sig .tc := ⟨.hbm, 31, rfl⟩
abbrev main_c : Ref sig .tc := ⟨.hbm, 32, rfl⟩
abbrev main_v2 : Ref sig .tc := ⟨.hbm, 33, rfl⟩
abbrev main_v3 : Ref sig .tc := ⟨.hbm, 34, rfl⟩
abbrev main_c_0 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_c_1 : Ref sig .tc := ⟨.hbm, 39, rfl⟩
abbrev main_v7 : Ref sig .tc := ⟨.hbm, 40, rfl⟩
abbrev main_v8 : Ref sig .tc := ⟨.hbm, 41, rfl⟩
abbrev main_c_2 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v22 : Ref sig .tc := ⟨.hbm, 78, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S8x8192x1024_2 : S1024.BroadcastsInDim S8x8192x1024 (![2] : Fin 1 → Fin S8x8192x1024.rank)
  bcast_S_S8x8192x1024 : S_.BroadcastsInDim S8x8192x1024 (![] : Fin 0 → Fin S8x8192x1024.rank)
  bcast_S_S16x16x64x64 : S_.BroadcastsInDim S16x16x64x64 (![] : Fin 0 → Fin S16x16x64x64.rank)
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  transposes_S16x16x64x64_S16x64x16x64_0_2_1_3 : S16x16x64x64.Transposes [0, 2, 1, 3] S16x64x16x64
  shapeCasts_S16x64x16x64_S1024x1024 : S16x64x16x64.ShapeCasts S1024x1024
  bcast_S1024_S1x1x1024_2 : S1024.BroadcastsInDim S1x1x1024 (![2] : Fin 1 → Fin S1x1x1024.rank)
  bcast_S1x1x1024_S8x8192x1024_0_1_2 : S1x1x1024.BroadcastsInDim S8x8192x1024 (![0, 1, 2] : Fin 3 → Fin S8x8192x1024.rank)
  gather_S8x8192x1024_S1024x1_S8x8192x1024_01_2_n_n_2_1_881921_wf : GatherDims.WF S8x8192x1024 S1024x1 S8x8192x1024 [0, 1] [2] [] [2] [] 1 ![8, 8192, 1]
  scatter_S16x16x64x64_S64x2_S64x64x64_12_01_01_1_wf : ScatterDims.WF S16x16x64x64 S64x2 S64x64x64 [1, 2] [0, 1] [0, 1] 1
  dot_S8x8192x1024_S1024x1024_S8x8192x1024_2_1_01_0_n_n_wf : DotDims.WF S8x8192x1024 S1024x1024 S8x8192x1024 [2] [1] [0, 1] [0] [] []

variable [Facts₀]

def gather_S8x8192x1024_S1024x1_S8x8192x1024_01_2_n_n_2_1_881921 : GatherDims S8x8192x1024 S1024x1 S8x8192x1024 where
  offsetDims := [0, 1]
  collapsedSliceDims := [2]
  operandBatchingDims := []
  startIndicesBatchingDims := []
  startIndexMap := [2]
  indexVectorDim := 1
  sliceSizes := ![8, 8192, 1]
  wf := gather_S8x8192x1024_S1024x1_S8x8192x1024_01_2_n_n_2_1_881921_wf
def scatter_S16x16x64x64_S64x2_S64x64x64_12_01_01_1 : ScatterDims S16x16x64x64 S64x2 S64x64x64 where
  updateWindowDims := [1, 2]
  insertedWindowDims := [0, 1]
  scatterDimsToOperandDims := [0, 1]
  indexVectorDim := 1
  wf := scatter_S16x16x64x64_S64x2_S64x64x64_12_01_01_1_wf
def dot_S8x8192x1024_S1024x1024_S8x8192x1024_2_1_01_0_n_n : DotDims S8x8192x1024 S1024x1024 S8x8192x1024 where
  lhsContracting := [2]
  rhsContracting := [1]
  lhsNonContracting := [0, 1]
  rhsNonContracting := [0]
  lhsBatch := []
  rhsBatch := []
  wf := dot_S8x8192x1024_S1024x1024_S8x8192x1024_2_1_01_0_n_n_wf

class Facts : Prop extends Facts₀ where

variable [Facts]
-- ==== Proof.Spec.lean ====
/-
  The mathematics of the block-sparse permuted linear layer, stated once over plain index types.

  The integer inputs are read as tables of positions: in_perm and out_perm send a feature position to a feature
  position, and (brow n, bcol n) is the cell of the 16 × 16 grid that weight block n occupies; no two blocks share a
  cell.  The dense weight W (o, i) is the entry (o mod 64, i mod 64) of the block sitting at cell (o / 64, i / 64), and
  zero where no block sits; written as a sum over the blocks, at most one summand is non-zero.

  Both programs compute  out (b, s, k') = Σ_k x (b, s, in_perm k) · W (out_perm k', k) + bias (out_perm k').  The
  reference does it in that order.  The kernel first folds the permutations into the weight,
  M (i, k') = Σ_k [in_perm k = i] · W (out_perm k', k), and then takes Σ_i x (b, s, i) · M (i, k').  The two agree on real
  numbers by distributing x (b, s, i) over the inner sum and exchanging the two sums: each k meets exactly one i.
-/
import Idealize.ShloMosaic.PureOps.Ideal
import Idealize.ShloMosaic.Lib.ValueIdx
import Mathlib.Algebra.BigOperators.Group.Finset.Basic

noncomputable section

open scoped BigOperators

namespace Cert.Spec

open Idealize.ShloMosaic Idealize.ShloMosaic.ValueIdx

/-- The activations' shape, the permutations' shape, the weight blocks' shape, the block coordinates' shape. -/
abbrev SX : Shape := ⟨3, ![8, 8192, 1024]⟩
abbrev SP : Shape := ⟨1, ![1024]⟩
abbrev SB : Shape := ⟨3, ![64, 64, 64]⟩
abbrev SN : Shape := ⟨1, ![64]⟩

/-- The integer inputs read as tables of positions: every entry is the word of a position inside the axis it indexes,
    and the blocks' cells are pairwise distinct. -/
structure Dec (ip op : IVec SP 32) (br bc : IVec SN 32) where
  ipf : Fin 1024 → Fin 1024
  opf : Fin 1024 → Fin 1024
  brf : Fin 64 → Fin 16
  bcf : Fin 64 → Fin 16
  hip : ∀ k : Fin 1024, ip (ix1 k) = BitVec.ofNat 32 (ipf k).val
  hop : ∀ k : Fin 1024, op (ix1 k) = BitVec.ofNat 32 (opf k).val
  hbr : ∀ n : Fin 64, br (ix1 n) = BitVec.ofNat 32 (brf n).val
  hbc : ∀ n : Fin 64, bc (ix1 n) = BitVec.ofNat 32 (bcf n).val
  hinj : ∀ n n' : Fin 64, brf n = brf n' → bcf n = bcf n' → n = n'

/-- Row o's position inside its block row, and column i's inside its block column. -/
def lo (o : Fin 1024) : Fin 64 := ⟨o.val % 64, Nat.mod_lt _ (by decide)⟩
/-- The block row (or block column) a position falls in. -/
def hi (o : Fin 1024) : Fin 16 := ⟨o.val / 64, by have := o.isLt; omega⟩

/-- The dense weight: entry (o, i) is the block at cell (o / 64, i / 64) read at (o mod 64, i mod 64), summed over the
    blocks sitting there (at most one). -/
def W (wb : SB.Idx → EReal) (brf bcf : Fin 64 → Fin 16) (o i : Fin 1024) : EReal :=
  ∑ n : Fin 64, if brf n = hi o ∧ bcf n = hi i then wb (ix3 n (lo o) (lo i)) else 0

/-- The reference's order: gather the features, multiply by the weight's row, add the bias, all at out_perm k'. -/
def refOut (x : SX.Idx → EReal) (wb : SB.Idx → EReal) (bias : SP.Idx → EReal) (ipf opf : Fin 1024 → Fin 1024)
    (brf bcf : Fin 64 → Fin 16) (b : Fin 8) (s : Fin 8192) (k' : Fin 1024) : EReal :=
  (∑ k : Fin 1024, x (ix3 b s (ipf k)) * W wb brf bcf (opf k') k) + bias (ix1 (opf k'))

/-- The weight with both permutations folded in. -/
def M (wb : SB.Idx → EReal) (ipf opf : Fin 1024 → Fin 1024) (brf bcf : Fin 64 → Fin 16) (i k' : Fin 1024) : EReal :=
  ∑ k : Fin 1024, if ipf k = i then W wb brf bcf (opf k') k else 0

/-- The kernel's order: one dense product with the folded weight, plus the permuted bias. -/
def kerOut (x : SX.Idx → EReal) (wb : SB.Idx → EReal) (bias : SP.Idx → EReal) (ipf opf : Fin 1024 → Fin 1024)
    (brf bcf : Fin 64 → Fin 16) (b : Fin 8) (s : Fin 8192) (k' : Fin 1024) : EReal :=
  (∑ i : Fin 1024, x (ix3 b s i) * M wb ipf opf brf bcf i k') + bias (ix1 (opf k'))

end Cert.Spec

end
-- ==== Proof.Algebra.lean ====
/-
  The one law that joins the two programs.  On real numbers, folding a permutation into the weight first and then
  taking one dense product is the same as gathering the features first:

    Σ_i x i · (Σ_k [g k = i] · w k)  =  Σ_k x (g k) · w k,

  by distributing x i over the inner sum, exchanging the two sums, and noting that each k meets exactly one i.  The
  distributive step is where finiteness is used: on the extended reals a product does not distribute over a sum of
  infinities of opposite signs, so both sides are first written as real numbers.
-/
import proofs.«422159_j44427141710516_3_alg».proof.Proof.Spec
import Mathlib.Data.EReal.Basic
import Mathlib.Algebra.BigOperators.Ring.Finset

noncomputable section

open scoped BigOperators

namespace Cert.Algebra

open Idealize.ShloMosaic Idealize.ShloMosaic.ValueIdx Cert.Spec

/-- The embedding of the reals in the extended reals commutes with finite sums. -/
theorem coe_sum {α : Type} (s : Finset α) (f : α → ℝ) : ((∑ a ∈ s, f a : ℝ) : EReal) = ∑ a ∈ s, (f a : EReal) := by
  classical
  refine Finset.induction_on s ?_ ?_
  · simp
  · intro a s ha ih
    rw [Finset.sum_insert ha, Finset.sum_insert ha, EReal.coe_add, ih]

/-- The law on real numbers. -/
theorem fold_real {ι κ : Type} [Fintype ι] [Fintype κ] [DecidableEq ι] (x : ι → ℝ) (w : κ → ℝ) (g : κ → ι) :
    ∑ i, x i * (∑ k, if g k = i then w k else 0) = ∑ k, x (g k) * w k := by
  simp only [Finset.mul_sum, mul_ite, mul_zero]
  rw [Finset.sum_comm]
  refine Finset.sum_congr rfl fun k _ => ?_
  rw [Finset.sum_ite_eq Finset.univ (g k) fun i => x i * w k]
  simp

/-- The law on extended reals that are real numbers. -/
theorem fold_ereal {ι κ : Type} [Fintype ι] [Fintype κ] [DecidableEq ι] (x : ι → ℝ) (w : κ → ℝ) (g : κ → ι) :
    ∑ i, (x i : EReal) * (∑ k, if g k = i then (w k : EReal) else 0) = ∑ k, (x (g k) : EReal) * (w k : EReal) := by
  have h1 : ∀ i, (∑ k, if g k = i then (w k : EReal) else 0) = ((∑ k, if g k = i then w k else 0 : ℝ) : EReal) := by
    intro i
    rw [coe_sum]
    refine Finset.sum_congr rfl fun k _ => ?_
    split_ifs <;> simp
  simp only [h1, ← EReal.coe_mul, ← coe_sum]
  exact congrArg _ (fold_real x w g)

/-- The dense weight of real blocks is real. -/
theorem W_real (wb : SB.Idx → EReal) (wbr : SB.Idx → ℝ) (h : ∀ i, wb i = (wbr i : EReal)) (brf bcf : Fin 64 → Fin 16)
    (o i : Fin 1024) :
    W wb brf bcf o i = ((∑ n : Fin 64, if brf n = hi o ∧ bcf n = hi i then wbr (ix3 n (lo o) (lo i)) else 0 : ℝ) : EReal) := by
  unfold W
  rw [coe_sum]
  refine Finset.sum_congr rfl fun n _ => ?_
  split_ifs
  · exact h _
  · simp

/-- With real activations and real weight blocks the kernel's order of computation gives the reference's result. -/
theorem kerOut_eq_refOut (x : SX.Idx → EReal) (wb : SB.Idx → EReal) (bias : SP.Idx → EReal)
    (ipf opf : Fin 1024 → Fin 1024) (brf bcf : Fin 64 → Fin 16)
    (hx : ∀ i, ∃ r : ℝ, x i = (r : EReal)) (hw : ∀ i, ∃ r : ℝ, wb i = (r : EReal))
    (b : Fin 8) (s : Fin 8192) (k' : Fin 1024) :
    kerOut x wb bias ipf opf brf bcf b s k' = refOut x wb bias ipf opf brf bcf b s k' := by
  choose xr hxr using hx
  choose wbr hwbr using hw
  unfold kerOut refOut M
  congr 1
  have hW : ∀ k, W wb brf bcf (opf k') k
      = ((∑ n : Fin 64, if brf n = hi (opf k') ∧ bcf n = hi k then wbr (ix3 n (lo (opf k')) (lo k)) else 0 : ℝ) : EReal) :=
    fun k => W_real wb wbr hwbr brf bcf (opf k') k
  simp only [hW, hxr]
  exact fold_ereal (fun i => xr (ix3 b s i)) _ ipf

end Cert.Algebra

end
-- ==== Proof.PreDecode.lean ====
/-
  What the precondition says, read back from its printed form: every activation and every weight entry is a real
  number, every integer input is a table of positions inside the axis it indexes, and no two weight blocks share a cell.

  The precondition is a conjunction of twelve "for all entries" statements.  Three say |v| < +∞ for a float entry v: an
  extended real whose absolute value max v (−v) is strictly below ⊤ is neither ⊤ nor ⊥, hence a real.  Eight say
  0 ≤ w and w < n, signed, for a 32-bit word w (n = 1024 for the two permutations, 16 for the block coordinates): a word
  that is non-negative signed is below 2³¹, so its signed and unsigned readings agree and the unsigned one is below n;
  the word is then the word of that position.  The last says, at every pair (n, n') of block numbers, that the rows
  differ, or the columns differ, or n = n': blocks with equal cells are the same block.
-/
import proofs.«422159_j44427141710516_3_alg».proof.Proof.Gen.Pre_finite_inputs
import proofs.«422159_j44427141710516_3_alg».proof.Proof.Spec
import Idealize.ShloMosaic.Lib.StableHlo.Predicate
import Idealize.ShloMosaic.Lib.ReduceAll

noncomputable section

open scoped BigOperators

namespace Cert.PreDecode

open Idealize.ShloMosaic Idealize.ShloMosaic.ValueIdx Cert.Spec

/-- The scalar shape has one index. -/
instance : Subsingleton Cert.Pre_finite_inputs.S_.Idx := ⟨fun a b => funext fun d => d.elim0⟩

/-- An extended real whose absolute value is strictly below +∞ (the pattern 0x7F800000) is a real number. -/
private theorem real_of_abs_lt (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  induction v using EReal.rec with
  | bot => simp [Ideal.cmp] at h
  | coe r => exact ⟨r, rfl⟩
  | top => simp [Ideal.cmp] at h

/-- A word in [0, n) signed is below n unsigned. -/
private theorem toNat_lt (w : BitVec 32) (n : Nat) (hn : n < 2 ^ 31) (h0 : IntOp.cmpi .sge w 0#32 = 1#1)
    (h1 : IntOp.cmpi .slt w (BitVec.ofNat 32 n) = 1#1) : w.toNat < n := by
  simp only [IntOp.cmpi, StableHlo.Predicate.ofBool_eq_one_iff, BitVec.sle, BitVec.slt, decide_eq_true_eq] at h0 h1
  rw [StableHlo.Predicate.toInt_ofNat_small n hn] at h1
  have z : (0#32 : BitVec 32).toInt = 0 := by decide
  rw [z] at h0
  have hw := w.isLt
  rw [BitVec.toInt_eq_toNat_cond] at h0 h1
  split at h0 <;> omega

/-- A word is the word of its unsigned value. -/
private theorem eq_ofNat_toNat (a : BitVec 32) : a = BitVec.ofNat 32 a.toNat := by
  apply BitVec.eq_of_toNat_eq
  rw [BitVec.toNat_ofNat, Nat.mod_eq_of_lt a.isLt]

/-- A vector of 64 laid along the first axis of the 64 × 64 square reads, at (n, n'), the vector at n. -/
private theorem bcast_first {α : Type} (hb : Cert.Pre_finite_inputs.S64.BroadcastsInDim Cert.Pre_finite_inputs.S64x64 ![0])
    (v : Cert.Pre_finite_inputs.S64.Idx → α) (n n' : Fin 64) :
    broadcastInDim Cert.Pre_finite_inputs.S64x64 ![0] hb v (ix2 n n') = v (ix1 n) := by
  simp only [broadcastInDim]
  congr 1
  funext a
  have ha : a = 0 := Subsingleton.elim _ _
  subst ha
  apply Fin.ext
  split
  · next h1 => exact absurd h1 (by decide)
  · rfl

/-- Laid along the second axis it reads, at (n, n'), the vector at n'. -/
private theorem bcast_second {α : Type} (hb : Cert.Pre_finite_inputs.S64.BroadcastsInDim Cert.Pre_finite_inputs.S64x64 ![1])
    (v : Cert.Pre_finite_inputs.S64.Idx → α) (n n' : Fin 64) :
    broadcastInDim Cert.Pre_finite_inputs.S64x64 ![1] hb v (ix2 n n') = v (ix1 n') := by
  simp only [broadcastInDim]
  congr 1
  funext a
  have ha : a = 0 := Subsingleton.elim _ _
  subst ha
  apply Fin.ext
  split
  · next h1 => exact absurd h1 (by decide)
  · rfl

/-- "Not equal" as a bit. -/
private theorem cmpi_ne_iff {a b : BitVec 32} : IntOp.cmpi .ne a b = 1#1 ↔ a ≠ b := by
  simp only [IntOp.cmpi, StableHlo.Predicate.ofBool_eq_one_iff, bne_iff_ne]

/-- The words of two block numbers are equal only for equal block numbers. -/
private theorem ofNat_inj64 (n n' : Fin 64) (e : BitVec.ofNat 32 n.val = BitVec.ofNat 32 n'.val) : n = n' := by
  have e' := congrArg BitVec.toNat e
  rw [BitVec.toNat_ofNat, BitVec.toNat_ofNat] at e'
  apply Fin.ext
  have := n.isLt; have := n'.isLt
  omega

/-- From the precondition holding (all ones) to the facts the value proof uses. -/
theorem decode (x : FVec Ideal SX .f32) (ip op : IVec SP 32) (wb : FVec Ideal SB .f32) (br bc : IVec SN 32)
    (bias : FVec Ideal SP .f32)
    (h : Cert.Pre_finite_inputs.fn (F := Ideal) x ip op wb br bc bias = fun _ => 1#1) :
    (∀ i, ∃ r : ℝ, x i = (r : EReal)) ∧ (∀ i, ∃ r : ℝ, wb i = (r : EReal)) ∧ Nonempty (Dec ip op br bc) := by
  have e := congrFun h ValueIdx.ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨⟨hx, hw⟩, -⟩, hi0⟩, hi1⟩, ho0⟩, ho1⟩, hr0⟩, hr1⟩, hc0⟩, hc1⟩, hd⟩ := e
  -- every conjunct at one entry
  have hx' := Host.reduce_andi_all _ _ _ _ _ hx
  have hw' := Host.reduce_andi_all _ _ _ _ _ hw
  have hi0' := Host.reduce_andi_all _ _ _ _ _ hi0
  have hi1' := Host.reduce_andi_all _ _ _ _ _ hi1
  have ho0' := Host.reduce_andi_all _ _ _ _ _ ho0
  have ho1' := Host.reduce_andi_all _ _ _ _ _ ho1
  have hr0' := Host.reduce_andi_all _ _ _ _ _ hr0
  have hr1' := Host.reduce_andi_all _ _ _ _ _ hr1
  have hc0' := Host.reduce_andi_all _ _ _ _ _ hc0
  have hc1' := Host.reduce_andi_all _ _ _ _ _ hc1
  have hd' := Host.reduce_andi_all _ _ _ _ _ hd
  have ipl : ∀ k : Fin 1024, (ip (ix1 k)).toNat < 1024 := fun k =>
    toNat_lt _ 1024 (by decide) (hi0' (ix1 k)) (hi1' (ix1 k))
  have opl : ∀ k : Fin 1024, (op (ix1 k)).toNat < 1024 := fun k =>
    toNat_lt _ 1024 (by decide) (ho0' (ix1 k)) (ho1' (ix1 k))
  have brl : ∀ n : Fin 64, (br (ix1 n)).toNat < 16 := fun n =>
    toNat_lt _ 16 (by decide) (hr0' (ix1 n)) (hr1' (ix1 n))
  have bcl : ∀ n : Fin 64, (bc (ix1 n)).toNat < 16 := fun n =>
    toNat_lt _ 16 (by decide) (hc0' (ix1 n)) (hc1' (ix1 n))
  refine ⟨fun i => real_of_abs_lt _ (hx' i), fun i => real_of_abs_lt _ (hw' i), ⟨?_⟩⟩
  refine
    { ipf := fun k => ⟨(ip (ix1 k)).toNat, ipl k⟩
      opf := fun k => ⟨(op (ix1 k)).toNat, opl k⟩
      brf := fun n => ⟨(br (ix1 n)).toNat, brl n⟩
      bcf := fun n => ⟨(bc (ix1 n)).toNat, bcl n⟩
      hip := fun k => eq_ofNat_toNat _
      hop := fun k => eq_ofNat_toNat _
      hbr := fun n => eq_ofNat_toNat _
      hbc := fun n => eq_ofNat_toNat _
      hinj := ?_ }
  intro n n' er ec
  have er' : br (ix1 n) = br (ix1 n') := BitVec.eq_of_toNat_eq (Fin.mk.inj er)
  have ec' : bc (ix1 n) = bc (ix1 n') := BitVec.eq_of_toNat_eq (Fin.mk.inj ec)
  have hnn := hd' (ix2 n n')
  simp only [ori, cmpi, IntOp.ori_eq_one] at hnn
  rw [bcast_first, bcast_second, bcast_first, bcast_second] at hnn
  rcases hnn with (hne | hne) | heq
  · exact absurd er' (cmpi_ne_iff.1 hne)
  · exact absurd ec' (cmpi_ne_iff.1 hne)
  · exact ofNat_inj64 n n' (StableHlo.Predicate.cmpi_eq_iff.1 heq)

end Cert.PreDecode

end
-- ==== Proof.LibDense.lean ====
/-
  The plain matrix product of two rank-2 arrays of extended reals, and the two places a program meets it: a
  contraction's sum over its one contracted axis, for dimension numbers that contract the left operand's columns
  with the right operand's rows and have no batch axis, re-indexed by that axis's coordinate; and, at the ideal
  values, a matmul into a zero accumulator whose operands pass through a narrower float format, and a host
  dot_general.
-/
import Idealize.ShloMosaic.PureOps.Ideal
import Idealize.ShloMosaic.PureOps.Ideal.Laws
import Idealize.ShloMosaic.Lib.ValueIdx

noncomputable section

open scoped BigOperators

namespace Cert.Lib

open Idealize.ShloMosaic Idealize.ShloMosaic.ValueIdx

/-- The matrix product x · w of an M × K by a K × N array: entry (p, q) is the sum over k of x (p, k) · w (k, q). -/
def dense {M K N : Nat} (x : (⟨2, ![M, K]⟩ : Shape).Idx → EReal) (w : (⟨2, ![K, N]⟩ : Shape).Idx → EReal) :
    (⟨2, ![M, N]⟩ : Shape).Idx → EReal :=
  fun j => ∑ k : Fin K, x (ValueIdx.ix2 (j 0) k) * w (ValueIdx.ix2 k (j 1))

/-- The product read at an entry. -/
theorem dense_apply {M K N : Nat} (x : (⟨2, ![M, K]⟩ : Shape).Idx → EReal) (w : (⟨2, ![K, N]⟩ : Shape).Idx → EReal)
    (j : (⟨2, ![M, N]⟩ : Shape).Idx) :
    dense x w j = ∑ k : Fin K, x (ValueIdx.ix2 (j 0) k) * w (ValueIdx.ix2 k (j 1)) := rfl

/-- A row of the product depends on that row of the left factor alone: if row p' of x' is row p of x, and w' is w,
    then entry (p', q) of x' · w' is entry (p, q) of x · w. -/
theorem dense_row {M M' K N : Nat} (x : (⟨2, ![M, K]⟩ : Shape).Idx → EReal) (x' : (⟨2, ![M', K]⟩ : Shape).Idx → EReal)
    (w w' : (⟨2, ![K, N]⟩ : Shape).Idx → EReal) (p : Fin M) (p' : Fin M')
    (hx : ∀ k : Fin K, x' (ValueIdx.ix2 p' k) = x (ValueIdx.ix2 p k)) (hw : ∀ i, w' i = w i) (q : Fin N) :
    dense x' w' (ValueIdx.ix2 p' q) = dense x w (ValueIdx.ix2 p q) := by
  show ∑ k : Fin K, x' (ValueIdx.ix2 p' k) * w' (ValueIdx.ix2 k q) = ∑ k : Fin K, x (ValueIdx.ix2 p k) * w (ValueIdx.ix2 k q)
  exact Finset.sum_congr rfl fun k _ => by rw [hx k, hw]

section Plain

variable {M K N : Nat} (d : DotDims ⟨2, ![M, K]⟩ ⟨2, ![K, N]⟩ ⟨2, ![M, N]⟩)

/-- Dimension numbers that contract one axis have a contraction shape of rank one. -/
theorem contr_rank (hlc : d.lhsContracting = [1]) : d.contr.rank = 1 := by
  rw [d.rank_contr, hlc]; rfl

/-- When the contracted axis is the left operand's second, the contraction shape's one extent is K. -/
theorem contr_size (hlc : d.lhsContracting = [1]) :
    d.contr.size ⟨0, by rw [contr_rank d hlc]; exact Nat.one_pos⟩ = K := by
  have hp : 0 < d.lhsContracting.length := by rw [hlc]; exact Nat.one_pos
  have h1 : d.lhsContracting[0]'hp = 1 := by simp [hlc]
  rw [d.size_contr 0 hp, h1]
  rfl

/-- Reading two coordinates of a rank-2 index at equal axis numbers gives equal values. -/
theorem coord_congr {n : Fin 2 → Nat} (j : (⟨2, n⟩ : Shape).Idx) (p q : Nat) (hp : p < 2) (hq : q < 2) (h : p = q) :
    (j ⟨p, hp⟩).val = (j ⟨q, hq⟩).val := by subst h; rfl

/-- The left operand's row is the result's row: axis 0 of the left operand is its one free axis, the first of the
    result's axes. -/
theorem lhsIdx_0 (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (show ¬(0 : Fin (⟨2, ![M, K]⟩ : Shape).rank) ∈ d.lhsBatch by rw [hlb]; exact List.not_mem_nil),
    dif_pos (show (0 : Fin (⟨2, ![M, K]⟩ : Shape).rank) ∈ d.lhsNonContracting by rw [hln]; exact List.mem_singleton.mpr rfl)]
  simp only [Fin.val_cast]
  exact coord_congr j _ _ _ _ (by simp [hlb, hln])

/-- The left operand's column is the contracted coordinate: axis 1 of the left operand is the contracted one. -/
theorem lhsIdx_1 (hlc : d.lhsContracting = [1]) (j : (⟨2, ![M, N]⟩ : Shape).Idx) (q : d.contr.Idx) :
    (d.lhsIdx j q 1).val = (q ⟨0, by rw [contr_rank d hlc]; exact Nat.one_pos⟩).val :=
  d.lhsIdx_val_of_single hlc j q

/-- The right operand's row is the contracted coordinate: axis 0 of the right operand is the contracted one. -/
theorem rhsIdx_0 (hlc : d.lhsContracting = [1]) (hrc : d.rhsContracting = [0]) (j : (⟨2, ![M, N]⟩ : Shape).Idx)
    (q : d.contr.Idx) : (d.rhsIdx j q 0).val = (q ⟨0, by rw [contr_rank d hlc]; exact Nat.one_pos⟩).val :=
  d.rhsIdx_val_of_single hrc j q

/-- The right operand's column is the result's column: axis 1 of the right operand is its one free axis, which
    comes after the left operand's one free axis among the result's axes. -/
theorem rhsIdx_1 (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (show ¬(1 : Fin (⟨2, ![K, N]⟩ : Shape).rank) ∈ d.rhsBatch by rw [hrb]; exact List.not_mem_nil),
    dif_pos (show (1 : Fin (⟨2, ![K, N]⟩ : Shape).rank) ∈ d.rhsNonContracting by rw [hrn]; exact List.mem_singleton.mpr rfl)]
  simp only [Fin.val_cast]
  exact coord_congr j _ _ _ _ (by simp [hlb, hln, hrn])

/-- THE CONTRACTION IS THE MATRIX PRODUCT. For dimension numbers contracting the left operand's columns with the
    right operand's rows, one free axis each and no batch axis, the sum over the contraction index of the operands'
    products at the dot's operand indices is the matrix product's entry: re-index the sum by the contracted axis's
    coordinate; the operand indices at result entry (p, q) and coordinate k are then (p, k) and (k, q). -/
theorem sum_contr_eq_dense (hlc : d.lhsContracting = [1]) (hrc : d.rhsContracting = [0])
    (hln : d.lhsNonContracting = [0]) (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = dense l r j := by
  rw [dense_apply, ← Equiv.sum_comp (ValueIdx.contrEquiv1 d K (contr_rank d hlc) (contr_size d hlc)).symm]
  refine Finset.sum_congr rfl fun k _ => ?_
  have hk := ValueIdx.contrEquiv1_symm_val d K (contr_rank d hlc) (contr_size d hlc) k
  have el : d.lhsIdx j ((ValueIdx.contrEquiv1 d K (contr_rank d hlc) (contr_size d hlc)).symm k)
      = (ValueIdx.ix2 (j 0) k : (⟨2, ![M, K]⟩ : Shape).Idx) := funext fun a => Fin.ext (by
    match a with
    | ⟨0, _⟩ => exact lhsIdx_0 d hln hlb _ _
    | ⟨1, _⟩ => exact (lhsIdx_1 d hlc _ _).trans hk)
  have er : d.rhsIdx j ((ValueIdx.contrEquiv1 d K (contr_rank d hlc) (contr_size d hlc)).symm k)
      = (ValueIdx.ix2 k (j 1) : (⟨2, ![K, N]⟩ : Shape).Idx) := funext fun a => Fin.ext (by
    match a with
    | ⟨0, _⟩ => exact (rhsIdx_0 d hlc hrc _ _).trans hk
    | ⟨1, _⟩ => exact rhsIdx_1 d hln hrn hlb hrb _ _)
  rw [el, er]

/-- At the ideal values a matmul into the zero accumulator, its two f32 operands first passed through bf16 (the
    identity on extended reals), is the matrix product of the operands. -/
theorem matmul_truncf_eq_dense (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32)
    (h₁ : FTy.bf16.bits < FTy.f32.bits) (h₂ : FTy.bf16.bits < FTy.f32.bits) :
    FloatOps.matmul d prec (truncf .bf16 l h₁ : FVec Ideal ⟨2, ![M, K]⟩ .bf16)
        (truncf .bf16 r h₂ : FVec Ideal ⟨2, ![K, N]⟩ .bf16) (constant (F := Ideal) ⟨2, ![M, N]⟩ .f32 0x00000000#32)
      = dense l r := by
  funext j
  rw [Ideal.matmul_constant_zero_apply]
  exact sum_contr_eq_dense d hlc hrc hln hrn hlb hrb l r j

/-- At the ideal values the host's dot_general is the matrix product of its operands, whatever the precision. -/
theorem dotGeneral_eq_dense (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32) :
    Host.dotGeneral d prec l r = dense l r := by
  funext j
  simp only [Host.dotGeneral]
  rw [Ideal.dotGeneral_apply]
  exact sum_contr_eq_dense d hlc hrc hln hrn hlb hrb l r j

end Plain

end Cert.Lib

end
-- ==== Proof.KerTerm.lean ====
/-
  The kernel program's host side as pure terms of the argument arrays, stage by stage, in the printed operations:
  the one-hot matrix of the blocks' flat cell numbers, the transposed dense weight it scatters the blocks into, the
  one-hot matrix of a permutation, the weight with both permutations folded in, the permuted bias row, the
  activations as rows; then the launched region's array (one dense product plus the bias row) and the result.
-/
import proofs.«422159_j44427141710516_3_alg».proof.KernelIdeal
import proofs.«422159_j44427141710516_3_alg».proof.Proof.LibDense

noncomputable section

namespace Cert.KernelIdeal.KerValue

open Idealize.ShloMosaic Idealize.ShloMosaic.ValueIdx Cert.KernelIdeal
open Cert.KernelIdeal.Facts₀ Cert.KernelIdeal.Facts

variable [Cert.KernelIdeal.Facts]

/-- Entry (rc, n) is 1 when block n's flat cell number brow n · 16 + bcol n is rc, else 0. -/
def cellHot (br bc : IVec S64 32) : FVec Ideal S256x64 .f32 :=
  let c : IVec S_ 32 := constantI S_ 32 16#32
  let v1 : IVec S64 32 := broadcastInDim S64 ![] bcast_S_S64 c
  let v2 : IVec S64 32 := muli br v1
  let v3 : IVec S64 32 := addi v2 bc
  let v4 : IVec S256x64 32 := iotaInDim S256x64 32 0
  let v5 : IVec S1x64 32 := broadcastInDim S1x64 ![1] bcast_S64_S1x64_1 v3
  let v6 : IVec S256x64 32 := broadcastInDim S256x64 ![0, 1] bcast_S1x64_S256x64_0_1 v5
  let v7 : IVec S256x64 1 := cmpi .eq v4 v6
  uitofp .f32 v7

/-- The dense weight transposed, entry (i, o): the blocks added into their cells, laid out as a 1024 × 1024 matrix,
    transposed. -/
def weightT (wb : FVec Ideal S64x64x64 .f32) (br bc : IVec S64 32) : FVec Ideal S1024x1024 .f32 :=
  let v0 : FVec Ideal S64x4096 .f32 := shapeCast S64x4096 wb shapeCasts_S64x64x64_S64x4096
  let v9 : FVec Ideal S256x4096 .f32 := Host.dotGeneral dot_S256x64_S64x4096_S256x4096_1_0_0_1_n_n (some .fp32) (cellHot br bc) v0
  let v10 : FVec Ideal S16x16x64x64 .f32 := shapeCast S16x16x64x64 v9 shapeCasts_S256x4096_S16x16x64x64
  let v11 : FVec Ideal S16x64x16x64 .f32 := transpose S16x64x16x64 [0, 2, 1, 3] v10 transposes_S16x16x64x64_S16x64x16x64_0_2_1_3
  let v12 : FVec Ideal S1024x1024 .f32 := shapeCast S1024x1024 v11 shapeCasts_S16x64x16x64_S1024x1024
  transpose S1024x1024 [1, 0] v12 transposes_S1024x1024_S1024x1024_1_0

/-- Entry (i, k) is 1 when the table sends k to i, else 0. -/
def permHot (p : IVec S1024 32) : FVec Ideal S1024x1024 .f32 :=
  let v14 : IVec S1024x1024 32 := iotaInDim S1024x1024 32 0
  let v15 : IVec S1x1024 32 := broadcastInDim S1x1024 ![1] bcast_S1024_S1x1024_1 p
  let v16 : IVec S1024x1024 32 := broadcastInDim S1024x1024 ![0, 1] bcast_S1x1024_S1024x1024_0_1 v15
  let v17 : IVec S1024x1024 1 := cmpi .eq v14 v16
  uitofp .f32 v17

/-- The weight with both permutations folded in, entry (i, k'). -/
def folded (ip op : IVec S1024 32) (wb : FVec Ideal S64x64x64 .f32) (br bc : IVec S64 32) : FVec Ideal S1024x1024 .f32 :=
  let v19 : FVec Ideal S1024x1024 .f32 := Host.dotGeneral dot_S1024x1024_S1024x1024_S1024x1024_1_0_0_1_n_n none (permHot ip) (weightT wb br bc)
  Host.dotGeneral dot_S1024x1024_S1024x1024_S1024x1024_1_0_0_1_n_n none v19 (permHot op)

/-- The same in the narrower float format the region's second window holds. -/
def foldedBf (ip op : IVec S1024 32) (wb : FVec Ideal S64x64x64 .f32) (br bc : IVec S64 32) : FVec Ideal S1024x1024 .bf16 :=
  truncf .bf16 (folded ip op wb br bc) bitsLt_bf16_f32

/-- The permuted bias as one row. -/
def biasRow (op : IVec S1024 32) (bias : FVec Ideal S1024 .f32) : FVec Ideal S1x1024 .f32 :=
  let v26 : FVec Ideal S1x1024 .f32 := broadcastInDim S1x1024 ![1] bcast_S1024_S1x1024_1 bias
  Host.dotGeneral dot_S1x1024_S1024x1024_S1x1024_1_0_0_1_n_n none v26 (permHot op)

/-- The activations as 65536 rows of 1024 features. -/
def rows (x : FVec Ideal S8x8192x1024 .f32) : FVec Ideal S65536x1024 .f32 :=
  shapeCast S65536x1024 x shapeCasts_S8x8192x1024_S65536x1024

/-- What the region leaves in its output array: row r, column k' is the product of row r of the first array with
    column k' of the second, plus the bias row's entry k'. -/
def regionOut (X : FVec Ideal S65536x1024 .f32) (Mw : FVec Ideal S1024x1024 .bf16) (B : FVec Ideal S1x1024 .f32) :
    FVec Ideal S65536x1024 .f32 :=
  fun j => Cert.Lib.dense (M := 65536) (K := 1024) (N := 1024) X Mw j + B (ix2 (0 : Fin 1) (j 1))

/-- The kernel program's result as a function of its seven argument arrays. -/
def result (x : FVec Ideal S8x8192x1024 .f32) (ip op : IVec S1024 32) (wb : FVec Ideal S64x64x64 .f32)
    (br bc : IVec S64 32) (bias : FVec Ideal S1024 .f32) : FVec Ideal S8x8192x1024 .f32 :=
  shapeCast S8x8192x1024 (regionOut (rows x) (foldedBf ip op wb br bc) (biasRow op bias)) shapeCasts_S65536x1024_S8x8192x1024

end Cert.KernelIdeal.KerValue

end
-- ==== Proof.KerRegion.lean ====
/-
  The kernel program's run with its result named: the launched region leaves in its output array, row by row, the
  dense product of the first window's array with the second's plus the third's row, and the program's result is that
  array re-laid as 8 × 8192 × 1024.

  The grid has 64 points.  Point t works on rows 1024·t … 1024·t + 1023: its first block is those rows of the first
  array, its second and third blocks are the whole second and third arrays, and what it writes back is those rows of
  the output.  The body multiplies the first block by the second (into a zero accumulator, the first block passed
  through the narrower float format, which changes nothing on extended reals) and adds the third block's one row to
  every row.  Entry (p, q) of the block product depends on row p of the first block alone, so it is entry
  (1024·t + p, q) of the product of the whole arrays; the 64 blocks of rows cover the output array, which therefore
  ends holding the whole-array function.  The one line after the region re-lays that array without touching its
  elements, and no line before or after the region writes an argument array.
-/
import proofs.«422159_j44427141710516_3_alg».proof.Proof.Gen.KernelIdeal.Frame
import proofs.«422159_j44427141710516_3_alg».proof.Proof.KerTerm
import Idealize.ShloMosaic.Lib.Pipeline.Value
import Idealize.ShloMosaic.Lib.ValueLayout
import Idealize.ShloMosaic.Lib.Tactic
import Idealize.ShloMosaic.PureOps.Ideal.Laws

noncomputable section

open scoped BigOperators

namespace Cert.KernelIdeal.KerValue

open Cert.KernelIdeal Cert.KernelIdeal.Gen Idealize.ShloMosaic Idealize.ShloMosaic.TcCoe Idealize.SL.Sem Idealize.ShloMosaic.ValueIdx

section Region

/-- The offsets of a rectangle that starts at the origin of a rank-2 buffer. -/
private theorem origin2 : (![0, 0] : Fin 2 → Nat) = fun _ => 0 := funext fun a => by fin_cases a <;> rfl

/-- The body's arithmetic at entry (p, q) of a block: the product of the first block with the second at (p, q), plus
    the third block's row at q.  The casts of a block to its own shape are the identity, the narrowing of the first
    block is the identity on extended reals, the product into the zero accumulator is the sum over the contracted
    axis, and the row broadcast down the rows is read at row 0. -/
private theorem body_entry (x0 : Vec Ideal S1024x1024 .f32) (x1 : Vec Ideal S1024x1024 .bf16) (x2 : Vec Ideal S1x1024 .f32)
    (p q : Fin 1024) :
    k0_pay1 (F := Ideal) x0 x1 x2 (ix2 p q)
      = Cert.Lib.dense (M := 1024) (K := 1024) (N := 1024) x0 x1 (ix2 p q) + x2 (ix2 (0 : Fin 1) q) := by
  unfold k0_pay1
  rw [ValueIdx.addf_apply]
  refine congrArg₂ (· + ·) ?_ ?_
  · refine (Ideal.matmul_constant_zero_apply _ none _ _ (ix2 p q)).trans ?_
    rw [shapeCast_self, shapeCast_self]
    exact Cert.Lib.sum_contr_eq_dense dot_S1024x1024_S1024x1024_S1024x1024_1_0_0_1_n_n rfl rfl rfl rfl rfl rfl x0 x1 (ix2 p q)
  · rw [shapeCast_self]
    refine broadcastTo_apply _ _ _ (ix2 (0 : Fin 1) q) (fun a => ?_)
    match a with
    | ⟨0, _⟩ => rfl
    | ⟨1, _⟩ => rfl

/-- One entry of one point's result block: when row p of the first block is row (i 0) of X, the second block is all of
    Mw and the third all of B, the body's arithmetic at (p, q) is the whole-array function at row (i 0), column q. -/
private theorem block_entry (X : FVec Ideal S65536x1024 .f32) (Mw : FVec Ideal S1024x1024 .bf16) (B : FVec Ideal S1x1024 .f32)
    (x0 : Vec Ideal S1024x1024 .f32) (x1 : Vec Ideal S1024x1024 .bf16) (x2 : Vec Ideal S1x1024 .f32)
    (p q : Fin 1024) (i : S65536x1024.Idx) (hi1 : (i 1).val = q.val)
    (h0 : ∀ k : Fin 1024, x0 (ix2 p k) = X (ix2 (i 0) k)) (h1 : ∀ y, x1 y = Mw y) (h2 : ∀ y, x2 y = B y) :
    k0_pay1 (F := Ideal) x0 x1 x2 (ix2 p q) = regionOut X Mw B i := by
  rw [body_entry]
  unfold regionOut
  obtain rfl : i 1 = q := Fin.ext hi1
  rw [h2]
  refine congrArg (· + B (ix2 (0 : Fin 1) (i 1))) ?_
  rw [eq_ix2 i]
  exact Cert.Lib.dense_row X x0 Mw x1 (i 0) p h0 h1 (i 1)

variable (m : (ℓ : Loc nD τ sig) → Buf (Elt Ideal) ℓ)

/-- The windows' block numbers over the grid: point t's block of the first window and of the output is block row t,
    and the second and third windows sit at block (0, 0) at every point. -/
private theorem block_numbers : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is its block of the whole-array function: rows 1024·t … 1024·t + 1023, every column.
    A block's coordinate on an axis is the block number times the block's extent plus the coordinate inside the block. -/
private theorem written_block (c : Dev nD) (t : Fin cfg0.N) :
    (dats (F := Ideal) m 0 c).flushed 3 t = ((cfg0.win 3).blk t).view.read (Elt Ideal)
      (regionOut (V (F := Ideal) m c main_call0_v29) (V (F := Ideal) m c main_call0_v28) (V (F := Ideal) m c main_call0_v27)) := by
  show (cfg0.win 3).cut (grid0.coords t) ((dats m 0 c).after 3 t) = _
  rw [after0_3]
  unfold out0_3
  rw [View.canon_unit_zero origin2]
  simp only [View.ld_unit_zero (S := S1024x1024) origin2, View.ld_unit_zero (S := S1x1024) origin2]
  obtain ⟨e00, e01, e10, e11, e20, e21, e30, e31⟩ := block_numbers t
  funext j
  have hj : (j : S1024x1024.Idx) = ix2 (j 0) (j 1) := eq_ix2 (n0 := 1024) (n1 := 1024) j
  show k0_pay1 (F := Ideal) (iblk m c 0 t) (iblk m c 1 t) (iblk m c 2 t) j
    = regionOut (V (F := Ideal) m c main_call0_v29) (V (F := Ideal) m c main_call0_v28) (V (F := Ideal) m c main_call0_v27) (((cfg0.win 3).blk t).view.emb j)
  refine (congrArg (k0_pay1 (F := Ideal) (iblk m c 0 t) (iblk m c 1 t) (iblk m c 2 t)) hj).trans ?_
  refine block_entry (V (F := Ideal) m c main_call0_v29) (V (F := Ideal) m c main_call0_v28) (V (F := Ideal) m c main_call0_v27)
    (iblk m c 0 t) (iblk m c 1 t) (iblk m c 2 t) (j 0) (j 1) (((cfg0.win 3).blk t).view.emb j) ?_ ?_ ?_ ?_
  · show win0_3.index t (1 : Fin 2) * 1024 + 1 * (j 1).val = (j 1).val
    omega
  · intro k
    show V (F := Ideal) m c main_call0_v29 (((cfg0.win 0).blk t).view.emb (ix2 (j 0) k)) = _
    refine congrArg (V (F := Ideal) m c main_call0_v29) (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 1024 + 1 * k.val = k.val; omega
  · intro y
    show V (F := Ideal) m c main_call0_v28 (((cfg0.win 1).blk t).view.emb y) = _
    refine congrArg (V (F := Ideal) m c main_call0_v28) (funext fun a => Fin.ext ?_)
    match a with
    | ⟨0, _⟩ => show win0_1.index t (0 : Fin 2) * 1024 + 1 * (y 0).val = (y 0).val; omega
    | ⟨1, _⟩ => show win0_1.index t (1 : Fin 2) * 1024 + 1 * (y 1).val = (y 1).val; omega
  · intro y
    show V (F := Ideal) m c main_call0_v27 (((cfg0.win 2).blk t).view.emb y) = _
    refine congrArg (V (F := Ideal) m c main_call0_v27) (funext fun a => Fin.ext ?_)
    match a with
    | ⟨0, _⟩ => show win0_2.index t (0 : Fin 2) * 1 + 1 * (y 0).val = (y 0).val; omega
    | ⟨1, _⟩ => show win0_2.index t (1 : Fin 2) * 1024 + 1 * (y 1).val = (y 1).val; omega

/-- An index of the output array is in point t's block iff each coordinate is in the block's range on its axis. -/
private theorem mem_block (t : Fin cfg0.N) (i : S65536x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_call0_v30).slice (win0_3.rect t)).set ↔ _
  rw [View.set_slice_whole, Rect.mem_set_unit]
  exact Iff.rfl

/-- Every entry of the output array is in some point's block: row r is in the block of point r / 1024. -/
private theorem rows_covered (i : S65536x1024.Idx) :
    ∃ t : Fin cfg0.N, (cfg0.win 3).flush t = true ∧ i ∈ ((cfg0.win 3).blk t).view.set := by
  have hi0 : (i 0).val < 65536 := (i 0).isLt
  have hi1 : (i 1).val < 1024 := (i 1).isLt
  have hN : cfg0.N = 64 := N_0
  refine ⟨⟨(i 0).val / 1024, by rw [hN]; omega⟩, flush0_3 _, ?_⟩
  rw [mem_block]
  obtain ⟨-, -, -, -, -, -, e30, e31⟩ := block_numbers ⟨(i 0).val / 1024, by rw [hN]; omega⟩
  intro a
  match a with
  | ⟨0, _⟩ =>
    show win0_3.index _ (0 : Fin 2) * 1024 ≤ (i 0).val ∧ (i 0).val < win0_3.index _ (0 : Fin 2) * 1024 + 1024
    rw [e30]; show (i 0).val / 1024 * 1024 ≤ (i 0).val ∧ (i 0).val < (i 0).val / 1024 * 1024 + 1024; omega
  | ⟨1, _⟩ =>
    show win0_3.index _ (1 : Fin 2) * 1024 ≤ (i 1).val ∧ (i 1).val < win0_3.index _ (1 : Fin 2) * 1024 + 1024
    rw [e31]; omega

/-- The output array after the run is the whole-array function of the three arrays the region finds. -/
private theorem output_array (c : Dev nD) : (dats (F := Ideal) m 0 c).arrAt 3 cfg0.N
    = regionOut (V (F := Ideal) m c main_call0_v29) (V (F := Ideal) m c main_call0_v28) (V (F := Ideal) m c main_call0_v27) :=
  (dats (F := Ideal) m 0 c).arrAt_eq_of_cover 3 _ (fun t _ => written_block m c t) rows_covered

/-- The one line after the region re-lays the output array as 8 × 8192 × 1024: the result buffer holds the output
    array's elements at the result's shape. -/
private theorem result_buffer (c : Dev nD) :
    Pipeline.afterTail₀ cfgs (dats (F := Ideal) m) 0 (V0 (F := Ideal) m) [hostOps1] c main_v0
      = shapeCast S8x8192x1024 (regionOut (V (F := Ideal) m c main_call0_v29) (V (F := Ideal) m c main_call0_v28)
          (V (F := Ideal) m c main_call0_v27)) shapeCasts_S65536x1024_S8x8192x1024 := by
  have e := (Pipeline.withArrays_arr spec0 launch0.win.arr_inj c (V0 (F := Ideal) m c)
    (fun w => (dats (F := Ideal) m 0 c).arrAt w cfg0.N) 3).trans (output_array m c)
  unfold Pipeline.afterTail₀
  show StableHlo.after hostOps1 _ (Proc.devRef .tc main_v0) = _
  after_results
  exact congrArg (fun A : FVec Ideal S65536x1024 .f32 => shapeCast S8x8192x1024 A shapeCasts_S65536x1024_S8x8192x1024) e

end Region

theorem run_region (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0)
        = shapeCast S8x8192x1024 (regionOut (V (F := Ideal) m c main_call0_v29) (V (F := Ideal) m c main_call0_v28)
            (V (F := Ideal) m c main_call0_v27)) shapeCasts_S65536x1024_S8x8192x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun _ h c =>
    ⟨((h c).2 main_v0 (Pipeline.mem_restRefs_of main_v0 (by decide) (by decide))).trans (result_buffer m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main (F := Ideal) m ρ)

end Cert.KernelIdeal.KerValue

end
-- ==== Proof.KerHost.lean ====
/-
  What the three input windows' arrays hold when the region is entered: the host operations before it, composed.
-/
import proofs.«422159_j44427141710516_3_alg».proof.Proof.Gen.KernelIdeal.Frame
import proofs.«422159_j44427141710516_3_alg».proof.Proof.KerTerm
import Idealize.ShloMosaic.Lib.StableHlo.Run

noncomputable section

open scoped BigOperators

namespace Cert.KernelIdeal.KerValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- Window 0's array: the activations as rows. -/
theorem V_rows (c : Dev nD) :
    (V (F := Ideal) m c main_call0_v29 : FVec Ideal S65536x1024 .f32) = rows (m ((c.tc : Thread nD τ).loc main_arg0)) := by
  -- the last operation before the region reshapes the activations, which no earlier operation writes
  show StableHlo.after hostOps0 (fun b => m (c, b)) (Proc.devRef .tc main_call0_v29) = _
  after_results
  rfl

/-- Window 1's array: the folded weight. -/
theorem V_folded (c : Dev nD) :
    (V (F := Ideal) m c main_call0_v28 : FVec Ideal S1024x1024 .bf16)
      = foldedBf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  -- the operations in order: the cells' one-hot matrix, the scattered and transposed dense weight, the two
  -- permutations' one-hot matrices, the two products, the narrowing; each intermediate value is read where it was written
  show StableHlo.after hostOps0 (fun b => m (c, b)) (Proc.devRef .tc main_call0_v28) = _
  after_results_simp
  rfl

/-- Window 2's array: the permuted bias row. -/
theorem V_bias (c : Dev nD) :
    (V (F := Ideal) m c main_call0_v27 : FVec Ideal S1x1024 .f32) = biasRow (m ((c.tc : Thread nD τ).loc main_arg2)) (m ((c.tc : Thread nD τ).loc main_arg6)) := by
  -- the bias as one row times the output permutation's one-hot matrix
  show StableHlo.after hostOps0 (fun b => m (c, b)) (Proc.devRef .tc main_call0_v27) = _
  after_results
  rfl

end Cert.KernelIdeal.KerValue

end
-- ==== Proof.KerRun.lean ====
/-
  The kernel program's run with its result as a function of the seven argument arrays: the region's three input
  arrays are the host stages of the arguments, and the result is the region's output array re-laid.
-/
import proofs.«422159_j44427141710516_3_alg».proof.Proof.KerRegion
import proofs.«422159_j44427141710516_3_alg».proof.Proof.KerHost

noncomputable section

namespace Cert.KernelIdeal.KerValue

open Cert.KernelIdeal Cert.KernelIdeal.Gen Idealize.ShloMosaic Idealize.ShloMosaic.TcCoe Idealize.SL.Sem

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono
    (fun r h c => ⟨(h c).1.trans (by rw [V_rows m c, V_folded m c, V_bias m c]; rfl), (h c).2⟩) (run_region m ρ)

end Cert.KernelIdeal.KerValue

end
-- ==== Proof.KerRead.lean ====
/-
  The kernel program's result read at an element: with the integer inputs tables of in-range positions, it is the
  activations' row times the folded weight's column, plus the bias at the permuted output position.
-/
import proofs.«422159_j44427141710516_3_alg».proof.Proof.Gen.KernelIdeal
import proofs.«422159_j44427141710516_3_alg».proof.Proof.KerTerm
import proofs.«422159_j44427141710516_3_alg».proof.Proof.Spec
import Idealize.ShloMosaic.Lib.Pipeline.Value
import Idealize.ShloMosaic.Lib.ValueLayout
import Idealize.ShloMosaic.Lib.StableHlo.Predicate

noncomputable section

open scoped BigOperators

namespace Cert.KernelIdeal.KerValue

open Cert.KernelIdeal Idealize.ShloMosaic Idealize.ShloMosaic.ValueIdx

section Stages

open Cert.KernelIdeal.Facts₀ Cert.KernelIdeal.Facts
open Idealize.ShloMosaic.StableHlo.Predicate (cmpi_eq_iff)
open Cert.Spec (hi lo)

/-! ## The one-hot matrices

Every entry of a one-hot matrix is the conversion of one bit, so it is exactly 1 or exactly 0; the bit is the equality
of two words, each the word of a position far below 2³², so it is the equality of the positions. -/

/-- A bit converted to a float is 1 when the bit is set and 0 otherwise. -/
private theorem uitofp_bit (c : BitVec 1) (P : Prop) [Decidable P] (h : c = 1#1 ↔ P) :
    (FloatOps.uitofp (F := Ideal) .f32 c : EReal) = if P then 1 else 0 := by
  by_cases hP : P
  · rw [if_pos hP, h.mpr hP]
    show (((1 : ℕ) : ℝ) : EReal) = 1
    simp
  · rw [if_neg hP, eq_zero_of_ne_one (fun hc => hP (h.mp hc))]
    show (((0 : ℕ) : ℝ) : EReal) = 0
    simp

/-- Two positions below 2³² have the same word exactly when they are equal. -/
private theorem ofNat32_inj {a b : Nat} (ha : a < 2 ^ 32) (hb : b < 2 ^ 32) : BitVec.ofNat 32 a = BitVec.ofNat 32 b ↔ a = b := by
  constructor
  · intro h
    have := congrArg BitVec.toNat h
    simp only [BitVec.toNat_ofNat] at this
    omega
  · intro h; rw [h]

/-- A table laid along the columns of a 1024 × 1024 square reads, at (i, k), the table at k. -/
private theorem bcast1024 (p : IVec S1024 32) (i k : Fin 1024) :
    broadcastInDim S1024x1024 ![0, 1] bcast_S1x1024_S1024x1024_0_1 (broadcastInDim S1x1024 ![1] bcast_S1024_S1x1024_1 p) (ix2 i k)
      = p (ix1 k) := by
  refine (broadcastInDim_apply _ _ _ (ix2 i k) (ix2 (0 : Fin 1) k) fun a => ?_).trans
    (broadcastInDim_apply _ _ _ (ix2 (0 : Fin 1) k) (ix1 k) fun a => ?_)
  · match a with
    | ⟨0, _⟩ => rfl
    | ⟨1, _⟩ => rfl
  · match a with
    | ⟨0, _⟩ => rfl

/-- The one-hot matrix of a table of positions: entry (i, k) is 1 exactly when the table sends k to i. -/
private theorem permHot_apply (p : IVec S1024 32) (f : Fin 1024 → Fin 1024) (hp : ∀ k, p (ix1 k) = BitVec.ofNat 32 (f k).val)
    (i k : Fin 1024) : permHot p (ix2 i k) = if f k = i then (1 : EReal) else 0 := by
  show FloatOps.uitofp (F := Ideal) .f32 (IntOp.cmpi .eq (BitVec.ofNat 32 i.val)
    (broadcastInDim S1024x1024 ![0, 1] bcast_S1x1024_S1024x1024_0_1 (broadcastInDim S1x1024 ![1] bcast_S1024_S1x1024_1 p) (ix2 i k))) = _
  rw [bcast1024, hp]
  refine uitofp_bit _ _ ?_
  rw [cmpi_eq_iff, ofNat32_inj (by have := i.isLt; omega) (by have := (f k).isLt; omega)]
  constructor
  · intro h; exact Fin.ext h.symm
  · intro h; rw [h]

/-- A table laid along the columns of a 256 × 64 rectangle reads, at (rc, n), the table at n. -/
private theorem bcast64 (p : IVec S64 32) (rc : Fin 256) (n : Fin 64) :
    broadcastInDim S256x64 ![0, 1] bcast_S1x64_S256x64_0_1 (broadcastInDim S1x64 ![1] bcast_S64_S1x64_1 p) (ix2 rc n)
      = p (ix1 n) := by
  refine (broadcastInDim_apply _ _ _ (ix2 rc n) (ix2 (0 : Fin 1) n) fun a => ?_).trans
    (broadcastInDim_apply _ _ _ (ix2 (0 : Fin 1) n) (ix1 n) fun a => ?_)
  · match a with
    | ⟨0, _⟩ => rfl
    | ⟨1, _⟩ => rfl
  · match a with
    | ⟨0, _⟩ => rfl

/-- The flat cell number of two grid coordinates below 16, computed on words, does not wrap. -/
private theorem cell_word (v w : Nat) (hv : v < 16) (hw : w < 16) :
    BitVec.ofNat 32 v * 16#32 + BitVec.ofNat 32 w = BitVec.ofNat 32 (v * 16 + w) := by
  apply BitVec.eq_of_toNat_eq
  simp only [BitVec.toNat_add, BitVec.toNat_mul, BitVec.toNat_ofNat]
  omega

/-- The one-hot matrix of the blocks' cells: entry (rc, n) is 1 exactly when block n's flat cell number is rc. -/
private theorem cellHot_apply (br bc : IVec S64 32) (brf bcf : Fin 64 → Fin 16)
    (hbr : ∀ n : Fin 64, br (ix1 n) = BitVec.ofNat 32 (brf n).val) (hbc : ∀ n : Fin 64, bc (ix1 n) = BitVec.ofNat 32 (bcf n).val)
    (rc : Fin 256) (n : Fin 64) :
    cellHot br bc (ix2 rc n) = if (brf n).val * 16 + (bcf n).val = rc.val then (1 : EReal) else 0 := by
  show FloatOps.uitofp (F := Ideal) .f32 (IntOp.cmpi .eq (BitVec.ofNat 32 rc.val)
    (broadcastInDim S256x64 ![0, 1] bcast_S1x64_S256x64_0_1 (broadcastInDim S1x64 ![1] bcast_S64_S1x64_1
      (addi (muli br (broadcastInDim S64 ![] bcast_S_S64 (constantI S_ 32 16#32))) bc)) (ix2 rc n))) = _
  rw [bcast64]
  show FloatOps.uitofp (F := Ideal) .f32 (IntOp.cmpi .eq (BitVec.ofNat 32 rc.val) (br (ix1 n) * 16#32 + bc (ix1 n))) = _
  rw [hbr, hbc, cell_word _ _ (brf n).isLt (bcf n).isLt]
  refine uitofp_bit _ _ ?_
  have h1 := (brf n).isLt
  have h2 := (bcf n).isLt
  have h3 := rc.isLt
  rw [cmpi_eq_iff, ofNat32_inj (by omega) (by omega)]
  constructor
  · intro h; exact h.symm
  · intro h; exact h.symm

/-! ## The dense weight, transposed

The 256 × 4096 product of the cells' one-hot matrix with the flattened blocks has, in the row of cell (r, c), the block
sitting at that cell (a sum over the blocks with at most one non-zero term). Two reshapes and two transposes lay it out
as the 1024 × 1024 matrix whose entry (i, o) is the dense weight's entry (o, i). -/

/-- The blocks as 64 rows of 4096 entries: row n, entry p · 64 + q is block n at (p, q). -/
private theorem wbFlat_apply (wb : FVec Ideal S64x64x64 .f32) (n p q : Fin 64) (c : Fin 4096) (hc : c.val = p.val * 64 + q.val) :
    shapeCast S64x4096 wb shapeCasts_S64x64x64_S64x4096 (ix2 n c) = wb (ix3 n p q) := by
  refine shapeCast_apply wb _ (ix2 n c) (ix3 n p q) ?_
  rw [Shape.rowMajor_val_three, Shape.rowMajor_val_two]
  show (n.val * 64 + p.val) * 64 + q.val = n.val * 4096 + c.val
  omega

/-- The layout chain of the transposed dense weight: entry (i, o) is the entry of the 256 × 4096 product in the row of
    cell (o / 64, i / 64) and the column of the position (o mod 64, i mod 64) inside the block. -/
private theorem weightT_read (wb : FVec Ideal S64x64x64 .f32) (br bc : IVec S64 32) (i o : Fin 1024) (r : Fin 256) (c : Fin 4096)
    (hr : r.val = o.val / 64 * 16 + i.val / 64) (hc : c.val = o.val % 64 * 64 + i.val % 64) :
    weightT wb br bc (ix2 i o)
      = Host.dotGeneral dot_S256x64_S64x4096_S256x4096_1_0_0_1_n_n (some .fp32) (cellHot br bc)
          (shapeCast S64x4096 wb shapeCasts_S64x64x64_S64x4096) (ix2 r c) := by
  unfold weightT
  refine (transpose_apply _ _ _ (ix2 i o) (ix2 o i) fun b => ?_).trans ?_
  · match b with
    | ⟨0, _⟩ => rfl
    | ⟨1, _⟩ => rfl
  refine (shapeCast_apply _ _ (ix2 o i) (ix4 (hi o) (lo o) (hi i) (lo i)) ?_).trans ?_
  · rw [Shape.rowMajor_val_four, Shape.rowMajor_val_two]
    show ((o.val / 64 * 64 + o.val % 64) * 16 + i.val / 64) * 64 + i.val % 64 = o.val * 1024 + i.val
    omega
  refine (transpose_apply _ _ _ (ix4 (hi o) (lo o) (hi i) (lo i)) (ix4 (hi o) (hi i) (lo o) (lo i)) fun b => ?_).trans ?_
  · match b with
    | ⟨0, _⟩ => rfl
    | ⟨1, _⟩ => rfl
    | ⟨2, _⟩ => rfl
    | ⟨3, _⟩ => rfl
  refine shapeCast_apply _ _ (ix4 (hi o) (hi i) (lo o) (lo i)) (ix2 r c) ?_
  rw [Shape.rowMajor_val_four, Shape.rowMajor_val_two]
  show r.val * 4096 + c.val = ((o.val / 64 * 16 + i.val / 64) * 64 + o.val % 64) * 64 + i.val % 64
  omega

/-- The transposed dense weight at (i, o) is the dense weight at (o, i): the product's sum over the blocks is the
    sum defining the dense weight, term by term, because two cells with coordinates below 16 have the same flat number
    exactly when they have the same coordinates. -/
private theorem weightT_apply (wb : FVec Ideal S64x64x64 .f32) (br bc : IVec S64 32) (brf bcf : Fin 64 → Fin 16)
    (hbr : ∀ n : Fin 64, br (ix1 n) = BitVec.ofNat 32 (brf n).val) (hbc : ∀ n : Fin 64, bc (ix1 n) = BitVec.ofNat 32 (bcf n).val)
    (i o : Fin 1024) : weightT wb br bc (ix2 i o) = Cert.Spec.W wb brf bcf o i := by
  have ho := o.isLt
  have hi' := i.isLt
  rw [weightT_read wb br bc i o ⟨o.val / 64 * 16 + i.val / 64, by omega⟩ ⟨o.val % 64 * 64 + i.val % 64, by omega⟩ rfl rfl,
    Cert.Lib.dotGeneral_eq_dense _ rfl rfl rfl rfl rfl rfl, Cert.Lib.dense_apply]
  unfold Cert.Spec.W
  refine Finset.sum_congr rfl fun n _ => ?_
  rw [wbFlat_apply wb n (lo o) (lo i) _ rfl]
  show cellHot br bc (ix2 _ n) * _ = _
  rw [cellHot_apply br bc brf bcf hbr hbc]
  have h1 := (brf n).isLt
  have h2 := (bcf n).isLt
  have hcond : ((brf n).val * 16 + (bcf n).val = o.val / 64 * 16 + i.val / 64) ↔ (brf n = hi o ∧ bcf n = hi i) := by
    rw [Fin.ext_iff, Fin.ext_iff]
    show _ ↔ (brf n).val = o.val / 64 ∧ (bcf n).val = i.val / 64
    omega
  by_cases h : brf n = hi o ∧ bcf n = hi i
  · rw [if_pos (hcond.mpr h), if_pos h, one_mul]
  · rw [if_neg (mt hcond.mp h), if_neg h, zero_mul]

/-! ## The folded weight, the bias row, the rows, and the result

A product with a one-hot matrix is a sum with at most one non-zero term: it is that term. -/

/-- The folded weight: the first product keeps, for each i, the columns k the input table sends to i; the second reads
    the one column the output table names. -/
private theorem folded_apply (ip op : IVec S1024 32) (wb : FVec Ideal S64x64x64 .f32) (br bc : IVec S64 32)
    (D : Cert.Spec.Dec ip op br bc) (i k' : Fin 1024) :
    folded ip op wb br bc (ix2 i k') = Cert.Spec.M wb D.ipf D.opf D.brf D.bcf i k' := by
  show Host.dotGeneral dot_S1024x1024_S1024x1024_S1024x1024_1_0_0_1_n_n none
    (Host.dotGeneral dot_S1024x1024_S1024x1024_S1024x1024_1_0_0_1_n_n none (permHot ip) (weightT wb br bc)) (permHot op) (ix2 i k') = _
  rw [Cert.Lib.dotGeneral_eq_dense _ rfl rfl rfl rfl rfl rfl, Cert.Lib.dotGeneral_eq_dense _ rfl rfl rfl rfl rfl rfl,
    Cert.Lib.dense_apply]
  refine (Finset.sum_eq_single (D.opf k') (fun o _ ho => ?_) (fun h => absurd (Finset.mem_univ _) h)).trans ?_
  · show _ * permHot op (ix2 o k') = 0
    rw [permHot_apply op D.opf D.hop, if_neg (fun h => ho h.symm), mul_zero]
  · show Cert.Lib.dense (permHot ip) (weightT wb br bc) (ix2 i (D.opf k')) * permHot op (ix2 (D.opf k') k') = _
    rw [permHot_apply op D.opf D.hop, if_pos rfl, mul_one, Cert.Lib.dense_apply]
    unfold Cert.Spec.M
    refine Finset.sum_congr rfl fun k _ => ?_
    show permHot ip (ix2 i k) * weightT wb br bc (ix2 k (D.opf k')) = _
    rw [permHot_apply ip D.ipf D.hip, weightT_apply wb br bc D.brf D.bcf D.hbr D.hbc]
    by_cases h : D.ipf k = i
    · rw [if_pos h, if_pos h, one_mul]
    · rw [if_neg h, if_neg h, zero_mul]

/-- The bias row: entry k' is the bias at the position the output table names. -/
private theorem biasRow_apply (op : IVec S1024 32) (bias : FVec Ideal S1024 .f32) (opf : Fin 1024 → Fin 1024)
    (hop : ∀ k : Fin 1024, op (ix1 k) = BitVec.ofNat 32 (opf k).val) (k' : Fin 1024) :
    biasRow op bias (ix2 (0 : Fin 1) k') = bias (ix1 (opf k')) := by
  show Host.dotGeneral dot_S1x1024_S1024x1024_S1x1024_1_0_0_1_n_n none
    (broadcastInDim S1x1024 ![1] bcast_S1024_S1x1024_1 bias) (permHot op) (ix2 (0 : Fin 1) k') = _
  rw [Cert.Lib.dotGeneral_eq_dense _ rfl rfl rfl rfl rfl rfl, Cert.Lib.dense_apply]
  refine (Finset.sum_eq_single (opf k') (fun o _ ho => ?_) (fun h => absurd (Finset.mem_univ _) h)).trans ?_
  · show _ * permHot op (ix2 o k') = 0
    rw [permHot_apply op opf hop, if_neg (fun h => ho h.symm), mul_zero]
  · show broadcastInDim S1x1024 ![1] bcast_S1024_S1x1024_1 bias (ix2 (0 : Fin 1) (opf k')) * permHot op (ix2 (opf k') k') = _
    rw [permHot_apply op opf hop, if_pos rfl, mul_one]
    refine broadcastInDim_apply _ _ _ _ (ix1 (opf k')) fun a => ?_
    match a with
    | ⟨0, _⟩ => rfl

/-- The activations as rows: row b · 8192 + s is the features of (b, s). -/
private theorem rows_apply (x : FVec Ideal S8x8192x1024 .f32) (b : Fin 8) (s : Fin 8192) (i : Fin 1024) (r : Fin 65536)
    (hr : r.val = b.val * 8192 + s.val) : rows x (ix2 r i) = x (ix3 b s i) := by
  refine shapeCast_apply x _ (ix2 r i) (ix3 b s i) ?_
  rw [Shape.rowMajor_val_three, Shape.rowMajor_val_two]
  show (b.val * 8192 + s.val) * 1024 + i.val = r.val * 1024 + i.val
  omega

/-- The result at (b, s, k') is the region's array at row b · 8192 + s, column k'. -/
private theorem result_read (x : FVec Ideal S8x8192x1024 .f32) (ip op : IVec S1024 32) (wb : FVec Ideal S64x64x64 .f32)
    (br bc : IVec S64 32) (bias : FVec Ideal S1024 .f32) (b : Fin 8) (s : Fin 8192) (k' : Fin 1024) (r : Fin 65536)
    (hr : r.val = b.val * 8192 + s.val) :
    result x ip op wb br bc bias (ix3 b s k')
      = regionOut (rows x) (foldedBf ip op wb br bc) (biasRow op bias) (ix2 r k') := by
  refine shapeCast_apply _ _ (ix3 b s k') (ix2 r k') ?_
  rw [Shape.rowMajor_val_three, Shape.rowMajor_val_two]
  show r.val * 1024 + k'.val = (b.val * 8192 + s.val) * 1024 + k'.val
  omega

end Stages

/-- THE KERNEL PROGRAM'S RESULT AT AN ELEMENT: the activations' row (b, s) times column k' of the folded weight, plus the
    bias at the position the output table names. -/
theorem result_apply (x : FVec Ideal S8x8192x1024 .f32) (ip op : IVec S1024 32) (wb : FVec Ideal S64x64x64 .f32)
    (br bc : IVec S64 32) (bias : FVec Ideal S1024 .f32) (D : Cert.Spec.Dec ip op br bc)
    (b : Fin 8) (s : Fin 8192) (k' : Fin 1024) :
    result x ip op wb br bc bias (ix3 b s k') = Cert.Spec.kerOut x wb bias D.ipf D.opf D.brf D.bcf b s k' := by
  have hb := b.isLt
  have hs := s.isLt
  rw [result_read x ip op wb br bc bias b s k' ⟨b.val * 8192 + s.val, by omega⟩ rfl]
  show Cert.Lib.dense (rows x) (foldedBf ip op wb br bc) (ix2 _ k') + biasRow op bias (ix2 (0 : Fin 1) k') = _
  rw [Cert.Lib.dense_apply, biasRow_apply op bias D.opf D.hop]
  unfold Cert.Spec.kerOut
  congr 1
  refine Finset.sum_congr rfl fun i _ => ?_
  show rows x (ix2 _ i) * folded ip op wb br bc (ix2 i k') = _
  rw [rows_apply x b s i _ rfl, folded_apply ip op wb br bc D]

end Cert.KernelIdeal.KerValue

end
-- ==== Proof.RefTerm.lean ====
/-
  The reference program as pure terms of the argument arrays, stage by stage, in the printed operations: a take
  along the last axis (negative positions wrapped, positions outside the axis filled), the dense weight scattered
  block by block into a zero array and laid out as a 1024 × 1024 matrix, the linear layer (a contraction of the
  gathered features with the weight's rows, plus the bias), and the result (a second take).
-/
import proofs.«422159_j44427141710516_3_alg».proof.ReferenceIdeal
import Idealize.ShloMosaic.PureOps.Ideal

noncomputable section

namespace Cert.ReferenceIdeal.RefValue

open Idealize.ShloMosaic Cert.ReferenceIdeal
open Cert.ReferenceIdeal.Facts₀ Cert.ReferenceIdeal.Facts

variable [Cert.ReferenceIdeal.Facts]

/-- A table of positions with its negative entries moved up by the axis length, as a column. -/
def wrapCol (idx : IVec S1024 32) : IVec S1024x1 32 :=
  let c : IVec S_ 32 := constantI S_ 32 0#32
  let v0 : IVec S1024 32 := broadcastInDim S1024 ![] bcast_S_S1024 c
  let v1 : IVec S1024 1 := cmpi .slt idx v0
  let c_0 : IVec S_ 32 := constantI S_ 32 1024#32
  let v2 : IVec S1024 32 := broadcastInDim S1024 ![] bcast_S_S1024 c_0
  let v3 : IVec S1024 32 := addi idx v2
  let v4 : IVec S1024 32 := select v1 v3 idx
  broadcastInDim S1024x1 ![0] bcast_S1024_S1024x1_0 v4

/-- Which entries of the wrapped column lie inside the axis. -/
def inAxis (v5 : IVec S1024x1 32) : IVec S1024 1 :=
  let c_1 : IVec S1 32 := constantI S1 32 1023#32
  let c_2 : IVec S_ 32 := constantI S_ 32 0#32
  let v6 : IVec S1024x1 32 := broadcastInDim S1024x1 ![] bcast_S_S1024x1 c_2
  let v7 : IVec S1024x1 1 := cmpi .sge v5 v6
  let v8 : IVec S1x1 32 := broadcastInDim S1x1 ![1] bcast_S1_S1x1_1 c_1
  let v9 : IVec S1024x1 32 := broadcastInDim S1024x1 ![0, 1] bcast_S1x1_S1024x1_0_1 v8
  let v10 : IVec S1024x1 1 := cmpi .sle v5 v9
  let v11 : IVec S1024x1 1 := andi v7 v10
  let c_3 : IVec S_ 1 := constantI S_ 1 1#1
  Host.reduce IntOp.andi v11 c_3 reducesTo_S1024x1_S1024_d1 h_S_

/-- The take along the last axis: the gathered entry where the position lies inside the axis, the fill elsewhere. -/
def take (x : FVec Ideal S8x8192x1024 .f32) (idx : IVec S1024 32) : FVec Ideal S8x8192x1024 .f32 :=
  let v5 : IVec S1024x1 32 := wrapCol idx
  let v12 : IVec S1024 1 := inAxis v5
  let v13 : FVec Ideal S8x8192x1024 .f32 := Host.gather gather_S8x8192x1024_S1024x1_S8x8192x1024_01_2_n_n_2_1_881921 x v5
  let v14 : IVec S8x8192x1024 1 := broadcastInDim S8x8192x1024 ![2] bcast_S1024_S8x8192x1024_2 v12
  let cst : FVec Ideal S_ .f32 := constant S_ .f32 0x7FC00000#32
  let v15 : FVec Ideal S8x8192x1024 .f32 := broadcastInDim S8x8192x1024 ![] bcast_S_S8x8192x1024 cst
  select v14 v13 v15

/-- A block coordinate table with its negative entries moved up by the grid's side. -/
def wrap16 (t : IVec S64 32) : IVec S64 32 :=
  let c : IVec S_ 32 := constantI S_ 32 0#32
  let v2 : IVec S64 32 := broadcastInDim S64 ![] bcast_S_S64 c
  let v3 : IVec S64 1 := cmpi .slt t v2
  let c_0 : IVec S_ 32 := constantI S_ 32 16#32
  let v4 : IVec S64 32 := broadcastInDim S64 ![] bcast_S_S64 c_0
  let v5 : IVec S64 32 := addi t v4
  select v3 v5 t

/-- The blocks' cells as a 64 × 2 table of (block row, block column). -/
def cells (br bc : IVec S64 32) : IVec S64x2 32 :=
  let v12 : IVec S64x1 32 := broadcastInDim S64x1 ![0] bcast_S64_S64x1_0 (wrap16 br)
  let v13 : IVec S64x1 32 := broadcastInDim S64x1 ![0] bcast_S64_S64x1_0 (wrap16 bc)
  concatenate S64x2 1 [⟨S64x1, v12⟩, ⟨S64x1, v13⟩] concatenates_S64x1_S64x1_S64x2_d1

/-- The dense weight, entry (o, i): the blocks written into their cells of a zero array, laid out as a matrix. -/
def weight (wb : FVec Ideal S64x64x64 .f32) (br bc : IVec S64 32) : FVec Ideal S1024x1024 .f32 :=
  let cst : FVec Ideal S_ .f32 := constant S_ .f32 0x00000000#32
  let v1 : FVec Ideal S16x16x64x64 .f32 := broadcastInDim S16x16x64x64 ![] bcast_S_S16x16x64x64 cst
  let v15 : FVec Ideal S16x16x64x64 .f32 := Host.scatter scatter_S16x16x64x64_S64x2_S64x64x64_12_01_01_1 (fun _ b => b) v1 (cells br bc) wb
  let v16 : FVec Ideal S16x64x16x64 .f32 := transpose S16x64x16x64 [0, 2, 1, 3] v15 transposes_S16x16x64x64_S16x64x16x64_0_2_1_3
  shapeCast S1024x1024 v16 shapeCasts_S16x64x16x64_S1024x1024

/-- The linear layer on gathered features: contraction with the weight's rows, plus the bias along the last axis. -/
def linear (xg : FVec Ideal S8x8192x1024 .f32) (w : FVec Ideal S1024x1024 .f32) (bias : FVec Ideal S1024 .f32) :
    FVec Ideal S8x8192x1024 .f32 :=
  let v18 : FVec Ideal S8x8192x1024 .f32 := Host.dotGeneral dot_S8x8192x1024_S1024x1024_S8x8192x1024_2_1_01_0_n_n none xg w
  let v19 : FVec Ideal S1x1x1024 .f32 := broadcastInDim S1x1x1024 ![2] bcast_S1024_S1x1x1024_2 bias
  let v20 : FVec Ideal S8x8192x1024 .f32 := broadcastInDim S8x8192x1024 ![0, 1, 2] bcast_S1x1x1024_S8x8192x1024_0_1_2 v19
  addf v18 v20

/-- The reference program's result as a function of its seven argument arrays. -/
def result (x : FVec Ideal S8x8192x1024 .f32) (ip op : IVec S1024 32) (wb : FVec Ideal S64x64x64 .f32)
    (br bc : IVec S64 32) (bias : FVec Ideal S1024 .f32) : FVec Ideal S8x8192x1024 .f32 :=
  take (linear (take x ip) (weight wb br bc) bias) op

end Cert.ReferenceIdeal.RefValue

end
-- ==== Proof.RefRun.lean ====
/-
  The reference program's run: every weakly fair execution ends with its result buffer at the composed term of the
  argument arrays, the arguments unchanged.

  @main is a straight line of 72 array operations once its two calls are opened: the 23 operations of the first take
  (the wrapped index column, the in-range mask, the gather, the fill, the select, with the nested select in its place),
  the 26 operations that scatter the blocks into the dense weight, contract the gathered features with it and add the
  bias, and the 23 operations of the second take.  Every operation writes one buffer of its own and reads buffers written
  before it or argument buffers, so what a buffer holds at the end is the composition of the operations along its
  dependencies.  The line is read in its three stretches, each from an arbitrary valuation of the buffers: the stretch's
  last buffer holds the stage's term (take, linear over weight, take) of what the valuation has at the buffers it reads,
  and the argument buffers keep their contents.  Chaining the three gives the result buffer at
  take (linear (take x in_perm) (weight blocks brow bcol) bias) out_perm, which is `result`.
-/
import proofs.«422159_j44427141710516_3_alg».proof.Proof.Gen.ReferenceIdeal
import proofs.«422159_j44427141710516_3_alg».proof.Proof.RefTerm
import Idealize.ShloMosaic.Lib.StableHlo.Run

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo

/-! ## The operations, in order -/

/-- The first take's 23 operations (the nested select in its place), at the first call's buffers: the typed builders of the
    function's body are the plain ones at these literal buffers, every buffer's type being the value's by computation. -/
abbrev opsA : List (HloOp τ sig (Elt Ideal)) :=
  [ nullary main_call0_c (constantI S_ 32 0#32),
    unary main_call0_c main_call0_v0 (broadcastInDim S1024 ![] bcast_S_S1024 : (⟨S_, .i32⟩ : BufTy).Contents (Elt Ideal) → (⟨S1024, .i32⟩ : BufTy).Contents (Elt Ideal)),
    binary main_arg1 main_call0_v0 main_call0_v1 (cmpi .slt : (⟨S1024, .i32⟩ : BufTy).Contents (Elt Ideal) → (⟨S1024, .i32⟩ : BufTy).Contents (Elt Ideal) → (⟨S1024, .i1⟩ : BufTy).Contents (Elt Ideal)),
    nullary main_call0_c_0 (constantI S_ 32 1024#32),
    unary main_call0_c_0 main_call0_v2 (broadcastInDim S1024 ![] bcast_S_S1024 : (⟨S_, .i32⟩ : BufTy).Contents (Elt Ideal) → (⟨S1024, .i32⟩ : BufTy).Contents (Elt Ideal)),
    binary main_arg1 main_call0_v2 main_call0_v3 (addi : (⟨S1024, .i32⟩ : BufTy).Contents (Elt Ideal) → (⟨S1024, .i32⟩ : BufTy).Contents (Elt Ideal) → (⟨S1024, .i32⟩ : BufTy).Contents (Elt Ideal)),
    ternary main_call0_v1 main_call0_v3 main_arg1 main_call0_v4 (select : (⟨S1024, .i1⟩ : BufTy).Contents (Elt Ideal) → (⟨S1024, .i32⟩ : BufTy).Contents (Elt Ideal) → (⟨S1024, .i32⟩ : BufTy).Contents (Elt Ideal) → (⟨S1024, .i32⟩ : BufTy).Contents (Elt Ideal)),
    unary main_call0_v4 main_call0_v5 (broadcastInDim S1024x1 ![0] bcast_S1024_S1024x1_0 : (⟨S1024, .i32⟩ : BufTy).Contents (Elt Ideal) → (⟨S1024x1, .i32⟩ : BufTy).Contents (Elt Ideal)),
    nullary main_call0_c_1 (constantI S1 32 1023#32),
    nullary main_call0_c_2 (constantI S_ 32 0#32),
    unary main_call0_c_2 main_call0_v6 (broadcastInDim S1024x1 ![] bcast_S_S1024x1 : (⟨S_, .i32⟩ : BufTy).Contents (Elt Ideal) → (⟨S1024x1, .i32⟩ : BufTy).Contents (Elt Ideal)),
    binary main_call0_v5 main_call0_v6 main_call0_v7 (cmpi .sge : (⟨S1024x1, .i32⟩ : BufTy).Contents (Elt Ideal) → (⟨S1024x1, .i32⟩ : BufTy).Contents (Elt Ideal) → (⟨S1024x1, .i1⟩ : BufTy).Contents (Elt Ideal)),
    unary main_call0_c_1 main_call0_v8 (broadcastInDim S1x1 ![1] bcast_S1_S1x1_1 : (⟨S1, .i32⟩ : BufTy).Contents (Elt Ideal) → (⟨S1x1, .i32⟩ : BufTy).Contents (Elt Ideal)),
    unary main_call0_v8 main_call0_v9 (broadcastInDim S1024x1 ![0, 1] bcast_S1x1_S1024x1_0_1 : (⟨S1x1, .i32⟩ : BufTy).Contents (Elt Ideal) → (⟨S1024x1, .i32⟩ : BufTy).Contents (Elt Ideal)),
    binary main_call0_v5 main_call0_v9 main_call0_v10 (cmpi .sle : (⟨S1024x1, .i32⟩ : BufTy).Contents (Elt Ideal) → (⟨S1024x1, .i32⟩ : BufTy).Contents (Elt Ideal) → (⟨S1024x1, .i1⟩ : BufTy).Contents (Elt Ideal)),
    binary main_call0_v7 main_call0_v10 main_call0_v11 (andi : (⟨S1024x1, .i1⟩ : BufTy).Contents (Elt Ideal) → (⟨S1024x1, .i1⟩ : BufTy).Contents (Elt Ideal) → (⟨S1024x1, .i1⟩ : BufTy).Contents (Elt Ideal)),
    nullary main_call0_c_3 (constantI S_ 1 1#1),
    binary main_call0_v11 main_call0_c_3 main_call0_v12 ((fun x v => Host.reduce IntOp.andi x v reducesTo_S1024x1_S1024_d1 h_S_) : (⟨S1024x1, .i1⟩ : BufTy).Contents (Elt Ideal) → (⟨S_, .i1⟩ : BufTy).Contents (Elt Ideal) → (⟨S1024, .i1⟩ : BufTy).Contents (Elt Ideal)),
    binary main_arg0 main_call0_v5 main_call0_v13 ((fun x i => Host.gather gather_S8x8192x1024_S1024x1_S8x8192x1024_01_2_n_n_2_1_881921 x i) : FVec Ideal S8x8192x1024 .f32 → (⟨S1024x1, .i32⟩ : BufTy).Contents (Elt Ideal) → FVec Ideal S8x8192x1024 .f32),
    unary main_call0_v12 main_call0_v14 (broadcastInDim S8x8192x1024 ![2] bcast_S1024_S8x8192x1024_2 : (⟨S1024, .i1⟩ : BufTy).Contents (Elt Ideal) → (⟨S8x8192x1024, .i1⟩ : BufTy).Contents (Elt Ideal)),
    nullary main_call0_cst (constant S_ .f32 0x7FC00000#32 : FVec Ideal S_ .f32),
    unary main_call0_cst main_call0_v15 (broadcastInDim S8x8192x1024 ![] bcast_S_S8x8192x1024 : FVec Ideal S_ .f32 → FVec Ideal S8x8192x1024 .f32),
    ternary main_call0_v14 main_call0_v13 main_call0_v15 main_v0 (select : (⟨S8x8192x1024, .i1⟩ : BufTy).Contents (Elt Ideal) → FVec Ideal S8x8192x1024 .f32 → FVec Ideal S8x8192x1024 .f32 → FVec Ideal S8x8192x1024 .f32) ]

/-- @main's own 26 operations between the two takes. -/
abbrev opsB : List (HloOp τ sig (Elt Ideal)) :=
  [ nullary main_cst (constant S_ .f32 0x00000000#32 : FVec Ideal S_ .f32),
    unary main_cst main_v1 (broadcastInDim S16x16x64x64 ![] bcast_S_S16x16x64x64 : FVec Ideal S_ .f32 → FVec Ideal S16x16x64x64 .f32),
    nullary main_c (constantI S_ 32 0#32),
    unary main_c main_v2 (broadcastInDim S64 ![] bcast_S_S64 : (⟨S_, .i32⟩ : BufTy).Contents (Elt Ideal) → (⟨S64, .i32⟩ : BufTy).Contents (Elt Ideal)),
    binary main_arg4 main_v2 main_v3 (cmpi .slt : (⟨S64, .i32⟩ : BufTy).Contents (Elt Ideal) → (⟨S64, .i32⟩ : BufTy).Contents (Elt Ideal) → (⟨S64, .i1⟩ : BufTy).Contents (Elt Ideal)),
    nullary main_c_0 (constantI S_ 32 16#32),
    unary main_c_0 main_v4 (broadcastInDim S64 ![] bcast_S_S64 : (⟨S_, .i32⟩ : BufTy).Contents (Elt Ideal) → (⟨S64, .i32⟩ : BufTy).Contents (Elt Ideal)),
    binary main_arg4 main_v4 main_v5 (addi : (⟨S64, .i32⟩ : BufTy).Contents (Elt Ideal) → (⟨S64, .i32⟩ : BufTy).Contents (Elt Ideal) → (⟨S64, .i32⟩ : BufTy).Contents (Elt Ideal)),
    ternary main_v3 main_v5 main_arg4 main_v6 (select : (⟨S64, .i1⟩ : BufTy).Contents (Elt Ideal) → (⟨S64, .i32⟩ : BufTy).Contents (Elt Ideal) → (⟨S64, .i32⟩ : BufTy).Contents (Elt Ideal) → (⟨S64, .i32⟩ : BufTy).Contents (Elt Ideal)),
    nullary main_c_1 (constantI S_ 32 0#32),
    unary main_c_1 main_v7 (broadcastInDim S64 ![] bcast_S_S64 : (⟨S_, .i32⟩ : BufTy).Contents (Elt Ideal) → (⟨S64, .i32⟩ : BufTy).Contents (Elt Ideal)),
    binary main_arg5 main_v7 main_v8 (cmpi .slt : (⟨S64, .i32⟩ : BufTy).Contents (Elt Ideal) → (⟨S64, .i32⟩ : BufTy).Contents (Elt Ideal) → (⟨S64, .i1⟩ : BufTy).Contents (Elt Ideal)),
    nullary main_c_2 (constantI S_ 32 16#32),
    unary main_c_2 main_v9 (broadcastInDim S64 ![] bcast_S_S64 : (⟨S_, .i32⟩ : BufTy).Contents (Elt Ideal) → (⟨S64, .i32⟩ : BufTy).Contents (Elt Ideal)),
    binary main_arg5 main_v9 main_v10 (addi : (⟨S64, .i32⟩ : BufTy).Contents (Elt Ideal) → (⟨S64, .i32⟩ : BufTy).Contents (Elt Ideal) → (⟨S64, .i32⟩ : BufTy).Contents (Elt Ideal)),
    ternary main_v8 main_v10 main_arg5 main_v11 (select : (⟨S64, .i1⟩ : BufTy).Contents (Elt Ideal) → (⟨S64, .i32⟩ : BufTy).Contents (Elt Ideal) → (⟨S64, .i32⟩ : BufTy).Contents (Elt Ideal) → (⟨S64, .i32⟩ : BufTy).Contents (Elt Ideal)),
    unary main_v6 main_v12 (broadcastInDim S64x1 ![0] bcast_S64_S64x1_0 : (⟨S64, .i32⟩ : BufTy).Contents (Elt Ideal) → (⟨S64x1, .i32⟩ : BufTy).Contents (Elt Ideal)),
    unary main_v11 main_v13 (broadcastInDim S64x1 ![0] bcast_S64_S64x1_0 : (⟨S64, .i32⟩ : BufTy).Contents (Elt Ideal) → (⟨S64x1, .i32⟩ : BufTy).Contents (Elt Ideal)),
    binary main_v12 main_v13 main_v14 ((fun a b => concatenate S64x2 1 [⟨S64x1, a⟩, ⟨S64x1, b⟩] concatenates_S64x1_S64x1_S64x2_d1) : (⟨S64x1, .i32⟩ : BufTy).Contents (Elt Ideal) → (⟨S64x1, .i32⟩ : BufTy).Contents (Elt Ideal) → (⟨S64x2, .i32⟩ : BufTy).Contents (Elt Ideal)),
    ternary main_v1 main_v14 main_arg3 main_v15 ((fun x i u => Host.scatter scatter_S16x16x64x64_S64x2_S64x64x64_12_01_01_1 (fun _ b => b) x i u) : FVec Ideal S16x16x64x64 .f32 → (⟨S64x2, .i32⟩ : BufTy).Contents (Elt Ideal) → FVec Ideal S64x64x64 .f32 → FVec Ideal S16x16x64x64 .f32),
    unary main_v15 main_v16 ((transpose S16x64x16x64 [0, 2, 1, 3] · transposes_S16x16x64x64_S16x64x16x64_0_2_1_3) : FVec Ideal S16x16x64x64 .f32 → FVec Ideal S16x64x16x64 .f32),
    reshape main_v16 main_v17 rfl shapeCasts_S16x64x16x64_S1024x1024,
    binary main_v0 main_v17 main_v18 ((fun l r => Host.dotGeneral dot_S8x8192x1024_S1024x1024_S8x8192x1024_2_1_01_0_n_n none l r) : FVec Ideal S8x8192x1024 .f32 → FVec Ideal S1024x1024 .f32 → FVec Ideal S8x8192x1024 .f32),
    unary main_arg6 main_v19 (broadcastInDim S1x1x1024 ![2] bcast_S1024_S1x1x1024_2 : FVec Ideal S1024 .f32 → FVec Ideal S1x1x1024 .f32),
    unary main_v19 main_v20 (broadcastInDim S8x8192x1024 ![0, 1, 2] bcast_S1x1x1024_S8x8192x1024_0_1_2 : FVec Ideal S1x1x1024 .f32 → FVec Ideal S8x8192x1024 .f32),
    binary main_v18 main_v20 main_v21 (addf : FVec Ideal S8x8192x1024 .f32 → FVec Ideal S8x8192x1024 .f32 → FVec Ideal S8x8192x1024 .f32) ]

/-- The second take's 23 operations, at the second call's buffers. -/
abbrev opsC : List (HloOp τ sig (Elt Ideal)) :=
  [ nullary main_call1_c (constantI S_ 32 0#32),
    unary main_call1_c main_call1_v0 (broadcastInDim S1024 ![] bcast_S_S1024 : (⟨S_, .i32⟩ : BufTy).Contents (Elt Ideal) → (⟨S1024, .i32⟩ : BufTy).Contents (Elt Ideal)),
    binary main_arg2 main_call1_v0 main_call1_v1 (cmpi .slt : (⟨S1024, .i32⟩ : BufTy).Contents (Elt Ideal) → (⟨S1024, .i32⟩ : BufTy).Contents (Elt Ideal) → (⟨S1024, .i1⟩ : BufTy).Contents (Elt Ideal)),
    nullary main_call1_c_0 (constantI S_ 32 1024#32),
    unary main_call1_c_0 main_call1_v2 (broadcastInDim S1024 ![] bcast_S_S1024 : (⟨S_, .i32⟩ : BufTy).Contents (Elt Ideal) → (⟨S1024, .i32⟩ : BufTy).Contents (Elt Ideal)),
    binary main_arg2 main_call1_v2 main_call1_v3 (addi : (⟨S1024, .i32⟩ : BufTy).Contents (Elt Ideal) → (⟨S1024, .i32⟩ : BufTy).Contents (Elt Ideal) → (⟨S1024, .i32⟩ : BufTy).Contents (Elt Ideal)),
    ternary main_call1_v1 main_call1_v3 main_arg2 main_call1_v4 (select : (⟨S1024, .i1⟩ : BufTy).Contents (Elt Ideal) → (⟨S1024, .i32⟩ : BufTy).Contents (Elt Ideal) → (⟨S1024, .i32⟩ : BufTy).Contents (Elt Ideal) → (⟨S1024, .i32⟩ : BufTy).Contents (Elt Ideal)),
    unary main_call1_v4 main_call1_v5 (broadcastInDim S1024x1 ![0] bcast_S1024_S1024x1_0 : (⟨S1024, .i32⟩ : BufTy).Contents (Elt Ideal) → (⟨S1024x1, .i32⟩ : BufTy).Contents (Elt Ideal)),
    nullary main_call1_c_1 (constantI S1 32 1023#32),
    nullary main_call1_c_2 (constantI S_ 32 0#32),
    unary main_call1_c_2 main_call1_v6 (broadcastInDim S1024x1 ![] bcast_S_S1024x1 : (⟨S_, .i32⟩ : BufTy).Contents (Elt Ideal) → (⟨S1024x1, .i32⟩ : BufTy).Contents (Elt Ideal)),
    binary main_call1_v5 main_call1_v6 main_call1_v7 (cmpi .sge : (⟨S1024x1, .i32⟩ : BufTy).Contents (Elt Ideal) → (⟨S1024x1, .i32⟩ : BufTy).Contents (Elt Ideal) → (⟨S1024x1, .i1⟩ : BufTy).Contents (Elt Ideal)),
    unary main_call1_c_1 main_call1_v8 (broadcastInDim S1x1 ![1] bcast_S1_S1x1_1 : (⟨S1, .i32⟩ : BufTy).Contents (Elt Ideal) → (⟨S1x1, .i32⟩ : BufTy).Contents (Elt Ideal)),
    unary main_call1_v8 main_call1_v9 (broadcastInDim S1024x1 ![0, 1] bcast_S1x1_S1024x1_0_1 : (⟨S1x1, .i32⟩ : BufTy).Contents (Elt Ideal) → (⟨S1024x1, .i32⟩ : BufTy).Contents (Elt Ideal)),
    binary main_call1_v5 main_call1_v9 main_call1_v10 (cmpi .sle : (⟨S1024x1, .i32⟩ : BufTy).Contents (Elt Ideal) → (⟨S1024x1, .i32⟩ : BufTy).Contents (Elt Ideal) → (⟨S1024x1, .i1⟩ : BufTy).Contents (Elt Ideal)),
    binary main_call1_v7 main_call1_v10 main_call1_v11 (andi : (⟨S1024x1, .i1⟩ : BufTy).Contents (Elt Ideal) → (⟨S1024x1, .i1⟩ : BufTy).Contents (Elt Ideal) → (⟨S1024x1, .i1⟩ : BufTy).Contents (Elt Ideal)),
    nullary main_call1_c_3 (constantI S_ 1 1#1),
    binary main_call1_v11 main_call1_c_3 main_call1_v12 ((fun x v => Host.reduce IntOp.andi x v reducesTo_S1024x1_S1024_d1 h_S_) : (⟨S1024x1, .i1⟩ : BufTy).Contents (Elt Ideal) → (⟨S_, .i1⟩ : BufTy).Contents (Elt Ideal) → (⟨S1024, .i1⟩ : BufTy).Contents (Elt Ideal)),
    binary main_v21 main_call1_v5 main_call1_v13 ((fun x i => Host.gather gather_S8x8192x1024_S1024x1_S8x8192x1024_01_2_n_n_2_1_881921 x i) : FVec Ideal S8x8192x1024 .f32 → (⟨S1024x1, .i32⟩ : BufTy).Contents (Elt Ideal) → FVec Ideal S8x8192x1024 .f32),
    unary main_call1_v12 main_call1_v14 (broadcastInDim S8x8192x1024 ![2] bcast_S1024_S8x8192x1024_2 : (⟨S1024, .i1⟩ : BufTy).Contents (Elt Ideal) → (⟨S8x8192x1024, .i1⟩ : BufTy).Contents (Elt Ideal)),
    nullary main_call1_cst (constant S_ .f32 0x7FC00000#32 : FVec Ideal S_ .f32),
    unary main_call1_cst main_call1_v15 (broadcastInDim S8x8192x1024 ![] bcast_S_S8x8192x1024 : FVec Ideal S_ .f32 → FVec Ideal S8x8192x1024 .f32),
    ternary main_call1_v14 main_call1_v13 main_call1_v15 main_v22 (select : (⟨S8x8192x1024, .i1⟩ : BufTy).Contents (Elt Ideal) → FVec Ideal S8x8192x1024 .f32 → FVec Ideal S8x8192x1024 .f32 → FVec Ideal S8x8192x1024 .f32) ]

/-- @main's 72 operations in order, the calls unfolded. -/
abbrev ops : List (HloOp τ sig (Elt Ideal)) := opsA ++ opsB ++ opsC

/-! ## What each stretch leaves where

Each stretch is read from an arbitrary valuation `W` of the buffers: its last buffer holds the stage's term of what `W`
has at the buffers the stretch reads, and the seven argument buffers, which no operation writes, hold what they held. -/

/-- After the first take, its result buffer holds the take of the activations along `in_perm`. -/
theorem afterA_v0 (W : Valuation τ sig (Elt Ideal)) :
    after opsA W (main_v0 : DevRef τ sig) = take (W (main_arg0 : DevRef τ sig)) (W (main_arg1 : DevRef τ sig)) := by
  after_results_simp
  rfl

/-- After the 26 operations between the takes, the last buffer holds the linear layer of the first take's result with
    the scattered weight and the bias. -/
theorem afterB_v21 (W : Valuation τ sig (Elt Ideal)) :
    after opsB W (main_v21 : DevRef τ sig)
      = linear (W (main_v0 : DevRef τ sig))
          (weight (W (main_arg3 : DevRef τ sig)) (W (main_arg4 : DevRef τ sig)) (W (main_arg5 : DevRef τ sig)))
          (W (main_arg6 : DevRef τ sig)) := by
  after_results_simp
  rfl

/-- After the second take, the program's result buffer holds the take of the linear layer's output along `out_perm`. -/
theorem afterC_v22 (W : Valuation τ sig (Elt Ideal)) :
    after opsC W (main_v22 : DevRef τ sig) = take (W (main_v21 : DevRef τ sig)) (W (main_arg2 : DevRef τ sig)) := by
  after_results_simp
  rfl

/-- No operation of the first take writes an argument buffer. -/
theorem afterA_args (W : Valuation τ sig (Elt Ideal)) :
    after opsA W (main_arg0 : DevRef τ sig) = W (main_arg0 : DevRef τ sig)
      ∧ after opsA W (main_arg1 : DevRef τ sig) = W (main_arg1 : DevRef τ sig)
      ∧ after opsA W (main_arg2 : DevRef τ sig) = W (main_arg2 : DevRef τ sig)
      ∧ after opsA W (main_arg3 : DevRef τ sig) = W (main_arg3 : DevRef τ sig)
      ∧ after opsA W (main_arg4 : DevRef τ sig) = W (main_arg4 : DevRef τ sig)
      ∧ after opsA W (main_arg5 : DevRef τ sig) = W (main_arg5 : DevRef τ sig)
      ∧ after opsA W (main_arg6 : DevRef τ sig) = W (main_arg6 : DevRef τ sig) := by
  refine ⟨?_, ?_, ?_, ?_, ?_, ?_, ?_⟩ <;> after_results_simp

/-- Nor does one of the operations between the takes. -/
theorem afterB_args (W : Valuation τ sig (Elt Ideal)) :
    after opsB W (main_arg0 : DevRef τ sig) = W (main_arg0 : DevRef τ sig)
      ∧ after opsB W (main_arg1 : DevRef τ sig) = W (main_arg1 : DevRef τ sig)
      ∧ after opsB W (main_arg2 : DevRef τ sig) = W (main_arg2 : DevRef τ sig)
      ∧ after opsB W (main_arg3 : DevRef τ sig) = W (main_arg3 : DevRef τ sig)
      ∧ after opsB W (main_arg4 : DevRef τ sig) = W (main_arg4 : DevRef τ sig)
      ∧ after opsB W (main_arg5 : DevRef τ sig) = W (main_arg5 : DevRef τ sig)
      ∧ after opsB W (main_arg6 : DevRef τ sig) = W (main_arg6 : DevRef τ sig) := by
  refine ⟨?_, ?_, ?_, ?_, ?_, ?_, ?_⟩ <;> after_results_simp

/-- Nor one of the second take. -/
theorem afterC_args (W : Valuation τ sig (Elt Ideal)) :
    after opsC W (main_arg0 : DevRef τ sig) = W (main_arg0 : DevRef τ sig)
      ∧ after opsC W (main_arg1 : DevRef τ sig) = W (main_arg1 : DevRef τ sig)
      ∧ after opsC W (main_arg2 : DevRef τ sig) = W (main_arg2 : DevRef τ sig)
      ∧ after opsC W (main_arg3 : DevRef τ sig) = W (main_arg3 : DevRef τ sig)
      ∧ after opsC W (main_arg4 : DevRef τ sig) = W (main_arg4 : DevRef τ sig)
      ∧ after opsC W (main_arg5 : DevRef τ sig) = W (main_arg5 : DevRef τ sig)
      ∧ after opsC W (main_arg6 : DevRef τ sig) = W (main_arg6 : DevRef τ sig) := by
  refine ⟨?_, ?_, ?_, ?_, ?_, ?_, ?_⟩ <;> after_results_simp

/-- The contents after two stretches in a row: the second run from what the first leaves. -/
private theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

/-- The whole line as its three stretches, each run from what the one before leaves. -/
theorem after_ops (V : Valuation τ sig (Elt Ideal)) : after ops V = after opsC (after opsB (after opsA V)) := by
  rw [show (ops : List (HloOp τ sig (Elt Ideal))) = (opsA ++ opsB) ++ opsC from rfl, after_app, after_app]

/-- The result buffer after the whole line: the second take reads the linear layer's output, which reads the first
    take's result and the argument buffers as the first take left them, that is, unchanged. -/
theorem after_ops_v22 (V : Valuation τ sig (Elt Ideal)) :
    after ops V (main_v22 : DevRef τ sig)
      = result (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  obtain ⟨-, -, hA2, hA3, hA4, hA5, hA6⟩ := afterA_args V
  obtain ⟨-, -, hB2, -, -, -, -⟩ := afterB_args (after opsA V)
  rw [after_ops, afterC_v22, afterB_v21, hB2, afterA_v0, hA2, hA3, hA4, hA5, hA6]
  rfl

/-- The argument buffers after the whole line: what they held. -/
theorem after_ops_args (V : Valuation τ sig (Elt Ideal)) :
    after ops V (main_arg0 : DevRef τ sig) = V (main_arg0 : DevRef τ sig)
      ∧ after ops V (main_arg1 : DevRef τ sig) = V (main_arg1 : DevRef τ sig)
      ∧ after ops V (main_arg2 : DevRef τ sig) = V (main_arg2 : DevRef τ sig)
      ∧ after ops V (main_arg3 : DevRef τ sig) = V (main_arg3 : DevRef τ sig)
      ∧ after ops V (main_arg4 : DevRef τ sig) = V (main_arg4 : DevRef τ sig)
      ∧ after ops V (main_arg5 : DevRef τ sig) = V (main_arg5 : DevRef τ sig)
      ∧ after ops V (main_arg6 : DevRef τ sig) = V (main_arg6 : DevRef τ sig) := by
  obtain ⟨hA0, hA1, hA2, hA3, hA4, hA5, hA6⟩ := afterA_args V
  obtain ⟨hB0, hB1, hB2, hB3, hB4, hB5, hB6⟩ := afterB_args (after opsA V)
  obtain ⟨hC0, hC1, hC2, hC3, hC4, hC5, hC6⟩ := afterC_args (after opsB (after opsA V))
  rw [after_ops]
  exact ⟨hC0.trans (hB0.trans hA0), hC1.trans (hB1.trans hA1), hC2.trans (hB2.trans hA2), hC3.trans (hB3.trans hA3),
    hC4.trans (hB4.trans hA4), hC5.trans (hB5.trans hA5), hC6.trans (hB6.trans hA6)⟩

/-! ## The run -/

set_option maxRecDepth 4096 in
/-- @main is that straight line: the two functions' bodies stand at their calls, each typed builder the plain one at the
    call's buffer. -/
theorem main_eq (c : Dev nD) : main (F := Ideal) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches buffers of the device only. -/
theorem ops_sub : (ops : List (HloOp τ sig (Elt Ideal))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., ternary_bufs_sub .., unary_bufs_sub .., reshape_bufs_sub .., binary_bufs_sub .., unary_bufs_sub ..,
    unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- On the device, from any memory with zero counters: every weakly fair execution of @main terminates with the result
    buffer at `result` of the seven argument arrays' launch contents, and the argument buffers unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v22) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun _ h c =>
      have hargs := after_ops_args (launchContents m c)
      ⟨(h c main_v22).trans (after_ops_v22 (launchContents m c)),
        (h c main_arg0).trans hargs.1, (h c main_arg1).trans hargs.2.1, (h c main_arg2).trans hargs.2.2.1,
        (h c main_arg3).trans hargs.2.2.2.1, (h c main_arg4).trans hargs.2.2.2.2.1,
        (h c main_arg5).trans hargs.2.2.2.2.2.1, (h c main_arg6).trans hargs.2.2.2.2.2.2⟩)
    (run_seq scopedRefs_eq scopedSems_eq defs main (fun _ => ops) main_eq (fun _ => ops_sub) m ρ)

end Cert.ReferenceIdeal.RefValue

end
-- ==== Proof.ScatterSet.lean ====
/-
  A scatter that WRITES (the update replaces the element) 64 blocks of 64 × 64 into a 16 × 16 grid of such blocks, each
  block at the cell its row of the index table names.  When the cells are pairwise distinct every element of the result
  meets at most one update, so the order of the updates does not matter: the result at (r, c, p, q) is the sum over the
  blocks n sitting at cell (r, c) of their entry (p, q), a sum with at most one term, on top of a zero array.
-/
import Idealize.ShloMosaic.PureOps.Ideal
import Idealize.ShloMosaic.Lib.ValueIdx
import Mathlib.Algebra.BigOperators.Group.Finset.Basic

noncomputable section

open scoped BigOperators

namespace Cert.ScatterSet

open Idealize.ShloMosaic Idealize.ShloMosaic.ValueIdx

/-- A left fold of steps that each either overwrite one key of a table (the key `g n` names, by the value `v n`) or
    leave the table alone, read at one key `i`: if no step of the list writes `i` the fold keeps the start value there;
    if every step of the list that writes `i` is the same step `n0`, and `n0` is in the list, the fold holds `v n0`
    there.  By induction on the list, the start table general. -/
private theorem foldl_overwrite {ι κ β : Type} (g : ι → Option κ) (v : ι → β)
    (F : (κ → β) → ι → (κ → β)) [DecidableEq κ]
    (hsome : ∀ r n k, g n = some k → F r n = fun i' => if i' = k then v n else r i')
    (hnone : ∀ r n, g n = none → F r n = r) (i : κ) :
    ∀ (l : List ι) (x : κ → β),
      ((∀ n ∈ l, g n ≠ some i) → l.foldl F x i = x i) ∧
      (∀ n0, n0 ∈ l → g n0 = some i → (∀ n ∈ l, g n = some i → n = n0) → l.foldl F x i = v n0) := by
  intro l
  induction l with
  | nil =>
    intro x
    exact ⟨fun _ => rfl, fun n0 h _ _ => absurd h (List.not_mem_nil)⟩
  | cons a l ih =>
    intro x
    rw [List.foldl_cons]
    -- the table after the first step, read at `i`, when that step does not write `i`
    have hstep : g a ≠ some i → F x a i = x i := by
      intro ha
      cases hga : g a with
      | none => rw [hnone x a hga]
      | some k =>
        rw [hsome x a k hga]
        have hik : i ≠ k := fun e => ha (by rw [hga, e])
        simp only [if_neg hik]
    refine ⟨fun hmiss => ?_, fun n0 hn0 hg0 huniq => ?_⟩
    · rw [(ih (F x a)).1 (fun n hn => hmiss n (List.mem_cons_of_mem a hn))]
      exact hstep (hmiss a (List.mem_cons_self))
    · by_cases hl : ∃ n ∈ l, g n = some i
      · obtain ⟨n, hn, hgn⟩ := hl
        have hnn0 : n = n0 := huniq n (List.mem_cons_of_mem a hn) hgn
        subst hnn0
        exact (ih (F x a)).2 n hn hgn (fun m hm hgm => huniq m (List.mem_cons_of_mem a hm) hgm)
      · have hmiss : ∀ n ∈ l, g n ≠ some i := fun n hn hgn => hl ⟨n, hn, hgn⟩
        rw [(ih (F x a)).1 hmiss]
        have ha0 : n0 = a := by
          rcases List.mem_cons.1 hn0 with h | h
          · exact h
          · exact absurd hg0 (hmiss n0 h)
        subst ha0
        rw [hsome x n0 i hg0]
        simp only [if_true]

/-- A word written from a number below 16 reads back, signed, as that number. -/
private theorem toInt_ofNat_small (v : Nat) (hv : v < 16) : (BitVec.ofNat 32 v).toInt = (v : Int) := by
  rw [BitVec.toInt_eq_toNat_cond, BitVec.toNat_ofNat]
  have : v % 2 ^ 32 = v := Nat.mod_eq_of_lt (by omega)
  rw [this]
  have h2 : 2 * v < 2 ^ 32 := by omega
  rw [if_pos h2]

/-- Where update element (n, p, q) lands: at cell (row n, column n) of the grid, at (p, q) inside the block; always
    inside the operand. -/
private theorem resultIdx_eq (d : ScatterDims ⟨4, ![16, 16, 64, 64]⟩ ⟨2, ![64, 2]⟩ ⟨3, ![64, 64, 64]⟩)
    (h1 : d.updateWindowDims = [1, 2]) (h2 : d.insertedWindowDims = [0, 1]) (h3 : d.scatterDimsToOperandDims = [0, 1])
    (h4 : d.indexVectorDim = 1)
    (idx : IVec ⟨2, ![64, 2]⟩ 32) (brf bcf : Fin 64 → Fin 16)
    (hr : ∀ n : Fin 64, idx (ix2 n (0 : Fin 2)) = BitVec.ofNat 32 (brf n).val)
    (hc : ∀ n : Fin 64, idx (ix2 n (1 : Fin 2)) = BitVec.ofNat 32 (bcf n).val)
    (n p q : Fin 64) :
    d.resultIdx? (ix3 n p q) idx = some (ix4 (brf n) (bcf n) p q) := by
  obtain ⟨uw, iw, sd, iv, wf⟩ := d
  simp only at h1 h2 h3 h4
  subst h1 h2 h3 h4
  generalize hd : (ScatterDims.mk [1, 2] [0, 1] [0, 1] 1 wf :
    ScatterDims ⟨4, ![16, 16, 64, 64]⟩ ⟨2, ![64, 2]⟩ ⟨3, ![64, 64, 64]⟩) = d
  -- the window coordinates: none on the two grid axes, (p, q) on the two block axes
  have hw0 : d.window (ix3 n p q) 0 = 0 := by subst hd; rfl
  have hw1 : d.window (ix3 n p q) 1 = 0 := by subst hd; rfl
  have hw2 : d.window (ix3 n p q) 2 = p.val := by subst hd; rfl
  have hw3 : d.window (ix3 n p q) 3 = q.val := by subst hd; rfl
  -- the window's start: the two words of row n of the index table on the grid axes, zero on the block axes
  have hs0 : d.start (ix3 n p q) idx 0 = ((brf n).val : Int) := by
    subst hd
    rw [← toInt_ofNat_small _ (brf n).isLt, ← hr n]
    unfold ScatterDims.start
    rw [dif_pos (show (0 : Fin 4) ∈ ([0, 1] : List (Fin 4)) from by decide)]
    congr 2
    funext b
    match b with
    | ⟨0, _⟩ => rfl
    | ⟨1, _⟩ => rfl
  have hs1 : d.start (ix3 n p q) idx 1 = ((bcf n).val : Int) := by
    subst hd
    rw [← toInt_ofNat_small _ (bcf n).isLt, ← hc n]
    unfold ScatterDims.start
    rw [dif_pos (show (1 : Fin 4) ∈ ([0, 1] : List (Fin 4)) from by decide)]
    congr 2
    funext b
    match b with
    | ⟨0, _⟩ => rfl
    | ⟨1, _⟩ => rfl
  have hs2 : d.start (ix3 n p q) idx 2 = 0 := by
    subst hd; unfold ScatterDims.start; rw [dif_neg (show (2 : Fin 4) ∉ ([0, 1] : List (Fin 4)) from by decide)]
  have hs3 : d.start (ix3 n p q) idx 3 = 0 := by
    subst hd; unfold ScatterDims.start; rw [dif_neg (show (3 : Fin 4) ∉ ([0, 1] : List (Fin 4)) from by decide)]
  have hall : ∀ a, 0 ≤ d.start (ix3 n p q) idx a + d.window (ix3 n p q) a ∧
      d.start (ix3 n p q) idx a + d.window (ix3 n p q) a < (⟨4, ![16, 16, 64, 64]⟩ : Shape).size a := by
    intro a
    match a with
    | ⟨0, _⟩ => rw [show (⟨0, by omega⟩ : Fin 4) = 0 from rfl, hs0, hw0]; have := (brf n).isLt; simp
    | ⟨1, _⟩ => rw [show (⟨1, by omega⟩ : Fin 4) = 1 from rfl, hs1, hw1]; have := (bcf n).isLt; simp
    | ⟨2, _⟩ => rw [show (⟨2, by omega⟩ : Fin 4) = 2 from rfl, hs2, hw2]; have := p.isLt; simp
    | ⟨3, _⟩ => rw [show (⟨3, by omega⟩ : Fin 4) = 3 from rfl, hs3, hw3]; have := q.isLt; simp
  unfold ScatterDims.resultIdx?
  rw [dif_pos hall]
  congr 1
  funext a
  refine Fin.ext ?_
  match a with
  | ⟨0, _⟩ => show (d.start (ix3 n p q) idx 0 + d.window (ix3 n p q) 0).toNat = (brf n).val; rw [hs0, hw0]; simp
  | ⟨1, _⟩ => show (d.start (ix3 n p q) idx 1 + d.window (ix3 n p q) 1).toNat = (bcf n).val; rw [hs1, hw1]; simp
  | ⟨2, _⟩ => show (d.start (ix3 n p q) idx 2 + d.window (ix3 n p q) 2).toNat = p.val; rw [hs2, hw2]; simp
  | ⟨3, _⟩ => show (d.start (ix3 n p q) idx 3 + d.window (ix3 n p q) 3).toNat = q.val; rw [hs3, hw3]; simp

/-- The scatter's result at an element, for the printed dimension numbers (update window axes 1 and 2, inserted
    window axes 0 and 1 of the operand, the index vector along axis 1 of the table naming operand axes 0 and 1). -/
theorem scatter_cells (d : ScatterDims ⟨4, ![16, 16, 64, 64]⟩ ⟨2, ![64, 2]⟩ ⟨3, ![64, 64, 64]⟩)
    (h1 : d.updateWindowDims = [1, 2]) (h2 : d.insertedWindowDims = [0, 1]) (h3 : d.scatterDimsToOperandDims = [0, 1])
    (h4 : d.indexVectorDim = 1)
    (x0 : (⟨4, ![16, 16, 64, 64]⟩ : Shape).Idx → EReal) (hx0 : ∀ i, x0 i = 0)
    (idx : IVec ⟨2, ![64, 2]⟩ 32) (upd : (⟨3, ![64, 64, 64]⟩ : Shape).Idx → EReal) (brf bcf : Fin 64 → Fin 16)
    (hr : ∀ n : Fin 64, idx (ix2 n (0 : Fin 2)) = BitVec.ofNat 32 (brf n).val)
    (hc : ∀ n : Fin 64, idx (ix2 n (1 : Fin 2)) = BitVec.ofNat 32 (bcf n).val)
    (hinj : ∀ n n' : Fin 64, brf n = brf n' → bcf n = bcf n' → n = n')
    (r c : Fin 16) (p q : Fin 64) :
    Host.scatter d (fun _ b => b) x0 idx upd (ix4 r c p q)
      = ∑ n : Fin 64, if brf n = r ∧ bcf n = c then upd (ix3 n p q) else 0 := by
  classical
  unfold Host.scatter
  -- where each step of the fold writes, with the update index split into its coordinates
  have hg : ∀ N : Fin (⟨3, ![64, 64, 64]⟩ : Shape).numel, ∃ n' p' q',
      (⟨3, ![64, 64, 64]⟩ : Shape).rowMajor.symm N = ix3 n' p' q' ∧
      d.resultIdx? ((⟨3, ![64, 64, 64]⟩ : Shape).rowMajor.symm N) idx = some (ix4 (brf n') (bcf n') p' q') := by
    intro N
    generalize (⟨3, ![64, 64, 64]⟩ : Shape).rowMajor.symm N = j
    obtain ⟨n', p', q', rfl⟩ : ∃ n' p' q', j = ix3 n' p' q' := ⟨j 0, j 1, j 2, eq_ix3 j⟩
    exact ⟨n', p', q', rfl, resultIdx_eq d h1 h2 h3 h4 idx brf bcf hr hc n' p' q'⟩
  -- two result indices are equal only coordinate by coordinate
  have hix : ∀ (a a' : Fin 16) (b b' : Fin 16) (e e' f f' : Fin 64),
      (ix4 a b e f : (⟨4, ![16, 16, 64, 64]⟩ : Shape).Idx) = ix4 a' b' e' f' → a = a' ∧ b = b' ∧ e = e' ∧ f = f' :=
    fun a a' b b' e e' f f' h => ⟨congrFun h 0, congrFun h 1, congrFun h 2, congrFun h 3⟩
  by_cases hex : ∃ n0 : Fin 64, brf n0 = r ∧ bcf n0 = c
  · -- one block sits at the cell: its element is the one update written there, and the one term of the sum
    obtain ⟨n0, hr0, hc0⟩ := hex
    have hsum : (∑ n : Fin 64, if brf n = r ∧ bcf n = c then upd (ix3 n p q) else 0) = upd (ix3 n0 p q) := by
      rw [Finset.sum_eq_single n0]
      · rw [if_pos ⟨hr0, hc0⟩]
      · intro n _ hn
        rw [if_neg]
        rintro ⟨hrn, hcn⟩
        exact hn (hinj n n0 (hrn.trans hr0.symm) (hcn.trans hc0.symm))
      · intro h; exact absurd (Finset.mem_univ n0) h
    rw [hsum]
    refine Eq.trans ((foldl_overwrite
      (fun N : Fin (⟨3, ![64, 64, 64]⟩ : Shape).numel =>
        d.resultIdx? ((⟨3, ![64, 64, 64]⟩ : Shape).rowMajor.symm N) idx)
      (fun N => upd ((⟨3, ![64, 64, 64]⟩ : Shape).rowMajor.symm N)) _ ?_ ?_ (ix4 r c p q)
      (List.finRange (⟨3, ![64, 64, 64]⟩ : Shape).numel) x0).2
      ((⟨3, ![64, 64, 64]⟩ : Shape).rowMajor (ix3 n0 p q)) (List.mem_finRange _) ?_ ?_) ?_
    · intro r' N k h; simp only [h]
    · intro r' N h; simp only [h]
    · show d.resultIdx? ((⟨3, ![64, 64, 64]⟩ : Shape).rowMajor.symm ((⟨3, ![64, 64, 64]⟩ : Shape).rowMajor (ix3 n0 p q))) idx = _
      rw [Equiv.symm_apply_apply, resultIdx_eq d h1 h2 h3 h4 idx brf bcf hr hc n0 p q, hr0, hc0]
    · intro N _ hN
      obtain ⟨n', p', q', hj, hres⟩ := hg N
      have hN' : d.resultIdx? ((⟨3, ![64, 64, 64]⟩ : Shape).rowMajor.symm N) idx = some (ix4 r c p q) := hN
      rw [hres] at hN'
      obtain ⟨e1, e2, e3, e4⟩ := hix _ _ _ _ _ _ _ _ (Option.some.inj hN')
      have hn' : n' = n0 := hinj n' n0 (e1.trans hr0.symm) (e2.trans hc0.symm)
      subst hn' e3 e4
      rw [← hj, Equiv.apply_symm_apply]
    · show upd ((⟨3, ![64, 64, 64]⟩ : Shape).rowMajor.symm ((⟨3, ![64, 64, 64]⟩ : Shape).rowMajor (ix3 n0 p q))) = _
      rw [Equiv.symm_apply_apply]
  · -- no block sits at the cell: no update is written there and every term of the sum is zero
    have hsum : (∑ n : Fin 64, if brf n = r ∧ bcf n = c then upd (ix3 n p q) else 0) = 0 := by
      refine Finset.sum_eq_zero fun n _ => ?_
      rw [if_neg]
      rintro ⟨hrn, hcn⟩
      exact hex ⟨n, hrn, hcn⟩
    rw [hsum, ← hx0 (ix4 r c p q)]
    refine (foldl_overwrite
      (fun N : Fin (⟨3, ![64, 64, 64]⟩ : Shape).numel =>
        d.resultIdx? ((⟨3, ![64, 64, 64]⟩ : Shape).rowMajor.symm N) idx)
      (fun N => upd ((⟨3, ![64, 64, 64]⟩ : Shape).rowMajor.symm N)) _ ?_ ?_ (ix4 r c p q)
      (List.finRange (⟨3, ![64, 64, 64]⟩ : Shape).numel) x0).1 ?_
    · intro r' N k h; simp only [h]
    · intro r' N h; simp only [h]
    · intro N _ hN
      obtain ⟨n', p', q', _, hres⟩ := hg N
      have hN' : d.resultIdx? ((⟨3, ![64, 64, 64]⟩ : Shape).rowMajor.symm N) idx = some (ix4 r c p q) := hN
      rw [hres] at hN'
      obtain ⟨e1, e2, _, _⟩ := hix _ _ _ _ _ _ _ _ (Option.some.inj hN')
      exact hex ⟨n', e1, e2⟩

end Cert.ScatterSet

end
-- ==== Proof.GatherDot.lean ====
/-
  Two reads at an element over the activations' shape: a gather along the last axis through a column of in-range
  positions, and a contraction of the last axis with the rows of a matrix.
-/
import Idealize.ShloMosaic.PureOps.Ideal
import Idealize.ShloMosaic.PureOps.Ideal.Laws
import Idealize.ShloMosaic.Lib.ValueIdx

noncomputable section

open scoped BigOperators

namespace Cert.GatherDot

open Idealize.ShloMosaic Idealize.ShloMosaic.ValueIdx

/-! ## Small facts about words, lists and coordinates -/

/-- The word of a position below 1024 reads, as a signed integer, as that position. -/
private theorem toInt_toNat_ofNat (v : Nat) (hv : v < 1024) : (BitVec.ofNat 32 v).toInt.toNat = v := by
  have h : (BitVec.ofNat 32 v).toNat = v := by
    rw [BitVec.toNat_ofNat]; exact Nat.mod_eq_of_lt (by omega)
  rw [BitVec.toInt_eq_msb_cond, BitVec.msb_eq_false_iff_two_mul_lt.mpr (by rw [h]; omega)]
  simp [h]

/-- An entry of a list known by an equation, at a position known by an equation. -/
private theorem getElem_of_eqs {α : Type} (l l' : List α) (n n' : Nat) (hn : n < l.length) (hn' : n' < l'.length)
    (hl : l = l') (h : n = n') : l[n] = l'[n'] := by
  subst hl; subst h; rfl

/-- Reading a coordinate of an index at equal axes gives equal values. -/
private theorem coord_eq {r : Nat} {n : Fin r → Nat} (j : (⟨r, n⟩ : Shape).Idx) (X Y : Fin r) (h : X = Y) :
    (j X).val = (j Y).val := by subst h; rfl

/-- Reading a coordinate of an index at equal axis numbers gives equal values. -/
private theorem coord_congr {r : Nat} {n : Fin r → Nat} (j : (⟨r, n⟩ : Shape).Idx) (p q : Nat) (hp : p < r) (hq : q < r)
    (h : p = q) : (j ⟨p, hp⟩).val = (j ⟨q, hq⟩).val := by subst h; rfl

/-! ## The gather along the last axis -/

section Gather

variable (d : GatherDims ⟨3, ![8, 8192, 1024]⟩ ⟨2, ![1024, 1]⟩ ⟨3, ![8, 8192, 1024]⟩)

/-- The operand's axes that are neither collapsed nor batching are the first two. -/
private theorem sKept_eq (h2 : d.collapsedSliceDims = [2]) (h3 : d.operandBatchingDims = []) : d.sKept = [0, 1] := by
  show Shape.kept _ (d.collapsedSliceDims ++ d.operandBatchingDims) = [0, 1]
  rw [h2, h3]; decide

/-- The result's one batch axis is the last. -/
private theorem batchDims_eq (h1 : d.offsetDims = [0, 1]) : d.batchDims = [2] := by
  show Shape.kept _ d.offsetDims = [2]
  rw [h1]; decide

/-- The start indices' one axis besides the index vector's is the first. -/
private theorem siKept_eq (h6 : d.indexVectorDim = 1) : d.siKept = [0] := by
  show (List.finRange 2).filter (fun b => decide (b.val ≠ d.indexVectorDim)) = [0]
  rw [h6]; decide

/-- On the first two axes the operand index is the result's coordinate: the start is zero (the start index map names
    the last axis alone) and the offset coordinate is the result's on the offset axis of the same rank. -/
private theorem operandIdx_off (h1 : d.offsetDims = [0, 1]) (h2 : d.collapsedSliceDims = [2])
    (h3 : d.operandBatchingDims = []) (h5 : d.startIndexMap = [2])
    (j : (⟨3, ![8, 8192, 1024]⟩ : Shape).Idx) (idx : IVec ⟨2, ![1024, 1]⟩ 32)
    (a : Fin 3) (p : Nat) (ha : a ≠ 2) (hp : ([0, 1] : List (Fin 3)).idxOf a = p) (hp2 : p < 2)
    (hpa : ([0, 1] : List (Fin 3))[p]'hp2 = a) :
    (d.operandIdx j idx a).val = (j a).val := by
  have hb : a ∉ d.operandBatchingDims := by rw [h3]; exact List.not_mem_nil
  have hm : a ∉ d.startIndexMap := by rw [h5]; exact fun h => ha (List.mem_singleton.mp h)
  have hk : a ∈ d.sKept := by
    rw [GatherDims.mem_sKept, h2, h3]; exact ⟨fun h => ha (List.mem_singleton.mp h), List.not_mem_nil⟩
  show d.start j idx a + d.batchCoord j a + d.offCoord j a = (j a).val
  rw [d.batchCoord_eq_zero j a hb]
  unfold GatherDims.start GatherDims.offCoord
  rw [dif_neg hm, dif_pos hk]
  simp only [Nat.zero_add]
  refine coord_eq j _ _ ?_
  have hlen : p < ([0, 1] : List (Fin 3)).length := hp2
  exact (getElem_of_eqs d.offsetDims [0, 1] _ p _ hlen h1 (by rw [sKept_eq d h2 h3]; exact hp)).trans hpa

/-- The start-indices index at which result index (b, s, k) reads its start index's one component is (k, 0): the
    result's batch axis, the last, gives the column's row, and the component's number, 0, sits on the index vector's
    axis. -/
private theorem siIdx_eq (h1 : d.offsetDims = [0, 1]) (h5 : d.startIndexMap = [2]) (h6 : d.indexVectorDim = 1)
    (b : Fin 8) (s : Fin 8192) (k : Fin 1024) (c : Fin d.startIndexMap.length) :
    d.siIdx (ix3 b s k) c = ix2 k (0 : Fin 1) := by
  funext a
  match a with
  | ⟨0, _⟩ =>
    unfold GatherDims.siIdx
    rw [dif_neg (by rw [h6]; exact Nat.zero_ne_one)]
    unfold GatherDims.siCoord
    apply Fin.ext
    simp only [Fin.val_cast]
    refine (coord_eq (ix3 b s k) _ 2 ?_).trans rfl
    exact getElem_of_eqs d.batchDims [2] _ 0 _ (by decide) (batchDims_eq d h1) (by rw [siKept_eq d h6]; rfl)
  | ⟨1, _⟩ =>
    unfold GatherDims.siIdx
    rw [dif_pos (by rw [h6])]
    apply Fin.ext
    show c.val = 0
    have hc : c.val < ([2] : List (Fin 3)).length := by rw [← h5]; exact c.isLt
    exact Nat.lt_one_iff.mp hc

/-- On the last axis the operand index is the position the column names: the start index, the word of a position
    below 1024, reads as that position, the clamp to [0, 1024 − 1] keeps it, and the axis is collapsed, so no offset
    is added. -/
private theorem operandIdx_last (h1 : d.offsetDims = [0, 1]) (h2 : d.collapsedSliceDims = [2])
    (h3 : d.operandBatchingDims = []) (h5 : d.startIndexMap = [2]) (h6 : d.indexVectorDim = 1)
    (idx : IVec ⟨2, ![1024, 1]⟩ 32) (f : Fin 1024 → Fin 1024)
    (hidx : ∀ k : Fin 1024, idx (ix2 k (0 : Fin 1)) = BitVec.ofNat 32 (f k).val)
    (b : Fin 8) (s : Fin 8192) (k : Fin 1024) :
    (d.operandIdx (ix3 b s k) idx 2).val = (f k).val := by
  have hb : (2 : Fin 3) ∉ d.operandBatchingDims := by rw [h3]; exact List.not_mem_nil
  have hm : (2 : Fin 3) ∈ d.startIndexMap := by rw [h5]; exact List.mem_singleton.mpr rfl
  have hc : (2 : Fin 3) ∈ d.collapsedSliceDims := by rw [h2]; exact List.mem_singleton.mpr rfl
  have hk : (2 : Fin 3) ∉ d.sKept := fun h => ((d.mem_sKept 2).mp h).1 hc
  have hsl : d.sliceSizes 2 = 1 := d.slice_collapsed 2 hc
  show d.start (ix3 b s k) idx 2 + d.batchCoord (ix3 b s k) 2 + d.offCoord (ix3 b s k) 2 = (f k).val
  rw [d.batchCoord_eq_zero _ 2 hb, d.offCoord_eq_zero _ 2 hk]
  unfold GatherDims.start
  rw [dif_pos hm, siIdx_eq d h1 h5 h6 b s k, hidx k, toInt_toNat_ofNat _ (f k).isLt, hsl]
  show min (f k).val (1024 - 1) + 0 + 0 = (f k).val
  have := (f k).isLt
  omega

end Gather

/-- A gather along the last axis (offset axes 0 and 1, the last axis collapsed and named by the start index, the
    index vector along axis 1 of the column, slices 8 × 8192 × 1): entry (b, s, k) is the operand's at (b, s, f k)
    when the column's row k holds the word of the position f k. -/
theorem gather_last {α : Type} (d : GatherDims ⟨3, ![8, 8192, 1024]⟩ ⟨2, ![1024, 1]⟩ ⟨3, ![8, 8192, 1024]⟩)
    (h1 : d.offsetDims = [0, 1]) (h2 : d.collapsedSliceDims = [2]) (h3 : d.operandBatchingDims = [])
    (h4 : d.startIndicesBatchingDims = []) (h5 : d.startIndexMap = [2]) (h6 : d.indexVectorDim = 1)
    (h7 : d.sliceSizes = ![8, 8192, 1])
    (x : (⟨3, ![8, 8192, 1024]⟩ : Shape).Idx → α) (idx : IVec ⟨2, ![1024, 1]⟩ 32) (f : Fin 1024 → Fin 1024)
    (hidx : ∀ k : Fin 1024, idx (ix2 k (0 : Fin 1)) = BitVec.ofNat 32 (f k).val)
    (b : Fin 8) (s : Fin 8192) (k : Fin 1024) :
    Host.gather d x idx (ix3 b s k) = x (ix3 b s (f k)) := by
  unfold Host.gather
  congr 1
  funext a
  apply Fin.ext
  match a with
  | ⟨0, _⟩ => exact operandIdx_off d h1 h2 h3 h5 (ix3 b s k) idx 0 0 (by decide) (by decide) (by decide) (by decide)
  | ⟨1, _⟩ => exact operandIdx_off d h1 h2 h3 h5 (ix3 b s k) idx 1 1 (by decide) (by decide) (by decide) (by decide)
  | ⟨2, _⟩ => exact operandIdx_last d h1 h2 h3 h5 h6 idx f hidx b s k

/-! ## The contraction of the last axis -/

section Dot

variable (d : DotDims ⟨3, ![8, 8192, 1024]⟩ ⟨2, ![1024, 1024]⟩ ⟨3, ![8, 8192, 1024]⟩)

/-- Dimension numbers that contract one axis have a contraction shape of rank one. -/
private theorem contr_rank (hlc : d.lhsContracting = [2]) : d.contr.rank = 1 := by
  rw [d.rank_contr, hlc]; rfl

/-- The contracted axis is the left operand's last, so the contraction shape's one extent is 1024. -/
private theorem contr_size (hlc : d.lhsContracting = [2]) :
    d.contr.size ⟨0, by rw [contr_rank d hlc]; exact Nat.one_pos⟩ = 1024 := by
  have hp : 0 < d.lhsContracting.length := by rw [hlc]; exact Nat.one_pos
  have h1 : d.lhsContracting[0]'hp = 2 := getElem_of_eqs _ [2] 0 0 hp Nat.one_pos hlc rfl
  rw [d.size_contr 0 hp, h1]
  rfl

/-- The left operand's axis 0 is its first free axis, the first of the result's axes. -/
private theorem lhsIdx_0 (hln : d.lhsNonContracting = [0, 1]) (hlb : d.lhsBatch = [])
    (j : (⟨3, ![8, 8192, 1024]⟩ : Shape).Idx) (q : d.contr.Idx) : (d.lhsIdx j q 0).val = (j 0).val := by
  unfold DotDims.lhsIdx
  rw [dif_neg (show ¬(0 : Fin (⟨3, ![8, 8192, 1024]⟩ : Shape).rank) ∈ d.lhsBatch by rw [hlb]; exact List.not_mem_nil),
    dif_pos (show (0 : Fin (⟨3, ![8, 8192, 1024]⟩ : Shape).rank) ∈ d.lhsNonContracting by rw [hln]; decide)]
  simp only [Fin.val_cast]
  exact coord_congr j _ _ _ _ (by rw [hlb, hln]; decide)

/-- The left operand's axis 1 is its second free axis, the second of the result's axes. -/
private theorem lhsIdx_1 (hln : d.lhsNonContracting = [0, 1]) (hlb : d.lhsBatch = [])
    (j : (⟨3, ![8, 8192, 1024]⟩ : Shape).Idx) (q : d.contr.Idx) : (d.lhsIdx j q 1).val = (j 1).val := by
  unfold DotDims.lhsIdx
  rw [dif_neg (show ¬(1 : Fin (⟨3, ![8, 8192, 1024]⟩ : Shape).rank) ∈ d.lhsBatch by rw [hlb]; exact List.not_mem_nil),
    dif_pos (show (1 : Fin (⟨3, ![8, 8192, 1024]⟩ : Shape).rank) ∈ d.lhsNonContracting by rw [hln]; decide)]
  simp only [Fin.val_cast]
  exact coord_congr j _ _ _ _ (by rw [hlb, hln]; decide)

/-- The left operand's axis 2 is the contracted one: it reads the contraction index's one coordinate. -/
private theorem lhsIdx_2 (hlc : d.lhsContracting = [2]) (j : (⟨3, ![8, 8192, 1024]⟩ : Shape).Idx) (q : d.contr.Idx) :
    (d.lhsIdx j q 2).val = (q ⟨0, by rw [contr_rank d hlc]; exact Nat.one_pos⟩).val :=
  d.lhsIdx_val_of_single hlc j q

/-- The right operand's axis 0 is its one free axis, which comes after the left operand's two among the result's
    axes. -/
private theorem rhsIdx_0 (hln : d.lhsNonContracting = [0, 1]) (hrn : d.rhsNonContracting = [0]) (hlb : d.lhsBatch = [])
    (hrb : d.rhsBatch = []) (j : (⟨3, ![8, 8192, 1024]⟩ : Shape).Idx) (q : d.contr.Idx) :
    (d.rhsIdx j q 0).val = (j 2).val := by
  unfold DotDims.rhsIdx
  rw [dif_neg (show ¬(0 : Fin (⟨2, ![1024, 1024]⟩ : Shape).rank) ∈ d.rhsBatch by rw [hrb]; exact List.not_mem_nil),
    dif_pos (show (0 : Fin (⟨2, ![1024, 1024]⟩ : Shape).rank) ∈ d.rhsNonContracting by rw [hrn]; decide)]
  simp only [Fin.val_cast]
  exact coord_congr j _ _ _ _ (by rw [hlb, hln, hrn]; decide)

/-- The right operand's axis 1 is the contracted one. -/
private theorem rhsIdx_1 (hlc : d.lhsContracting = [2]) (hrc : d.rhsContracting = [1])
    (j : (⟨3, ![8, 8192, 1024]⟩ : Shape).Idx) (q : d.contr.Idx) :
    (d.rhsIdx j q 1).val = (q ⟨0, by rw [contr_rank d hlc]; exact Nat.one_pos⟩).val :=
  d.rhsIdx_val_of_single hrc j q

end Dot

/-- The host contraction of the activations' last axis with axis 1 of a matrix (free axes 0, 1 on the left and 0 on
    the right, no batch axis), at the ideal values: entry (b, s, o) is the sum over k of l (b, s, k) · r (o, k). -/
theorem dot_last (d : DotDims ⟨3, ![8, 8192, 1024]⟩ ⟨2, ![1024, 1024]⟩ ⟨3, ![8, 8192, 1024]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (l : FVec Ideal ⟨3, ![8, 8192, 1024]⟩ .f32) (r : FVec Ideal ⟨2, ![1024, 1024]⟩ .f32)
    (b : Fin 8) (s : Fin 8192) (o : Fin 1024) :
    Host.dotGeneral d prec l r (ix3 b s o) = ∑ k : Fin 1024, l (ix3 b s k) * r (ix2 o k) := by
  simp only [Host.dotGeneral]
  rw [Ideal.dotGeneral_apply, ← Equiv.sum_comp (contrEquiv1 d 1024 (contr_rank d hlc) (contr_size d hlc)).symm]
  refine Finset.sum_congr rfl fun k _ => ?_
  have hk := contrEquiv1_symm_val d 1024 (contr_rank d hlc) (contr_size d hlc) k
  have el : d.lhsIdx (ix3 b s o) ((contrEquiv1 d 1024 (contr_rank d hlc) (contr_size d hlc)).symm k)
      = (ix3 b s k : (⟨3, ![8, 8192, 1024]⟩ : Shape).Idx) := funext fun a => Fin.ext (by
    match a with
    | ⟨0, _⟩ => exact lhsIdx_0 d hln hlb _ _
    | ⟨1, _⟩ => exact lhsIdx_1 d hln hlb _ _
    | ⟨2, _⟩ => exact (lhsIdx_2 d hlc _ _).trans hk)
  have er : d.rhsIdx (ix3 b s o) ((contrEquiv1 d 1024 (contr_rank d hlc) (contr_size d hlc)).symm k)
      = (ix2 o k : (⟨2, ![1024, 1024]⟩ : Shape).Idx) := funext fun a => Fin.ext (by
    match a with
    | ⟨0, _⟩ => exact rhsIdx_0 d hln hrn hlb hrb _ _
    | ⟨1, _⟩ => exact (rhsIdx_1 d hlc hrc _ _).trans hk)
  rw [el, er]

end Cert.GatherDot

end
-- ==== Proof.RefRead.lean ====
/-
  The reference's result read at an element: with the integer inputs tables of in-range positions and the blocks'
  cells distinct, it is the gathered features times the dense weight's row at the permuted output position, plus the
  bias there.

  Stage by stage.  A table of positions inside its axis passes the wrap of negative entries unchanged and passes both
  range tests, so a take along the last axis reads the operand at the tabled position and never the fill.  The cell
  table's two columns are the block-row and block-column tables.  The matrix layout of the 16 × 64 × 16 × 64 array
  puts entry (o, i) at (o / 64, o mod 64, i / 64, i mod 64), the transpose swaps the two middle coordinates, and the
  scattered grid of blocks holds at (r, c, p, q) the sum over the blocks sitting at cell (r, c) of their entry (p, q).
  The linear layer is the contraction with the weight's rows plus the bias along the last axis.
-/
import proofs.«422159_j44427141710516_3_alg».proof.Proof.Gen.ReferenceIdeal
import proofs.«422159_j44427141710516_3_alg».proof.Proof.RefTerm
import proofs.«422159_j44427141710516_3_alg».proof.Proof.Spec
import proofs.«422159_j44427141710516_3_alg».proof.Proof.ScatterSet
import proofs.«422159_j44427141710516_3_alg».proof.Proof.GatherDot
import Idealize.ShloMosaic.Lib.Pipeline.Value
import Idealize.ShloMosaic.Lib.ValueLayout
import Idealize.ShloMosaic.Lib.StableHlo.Predicate

noncomputable section

open scoped BigOperators

namespace Cert.ReferenceIdeal.RefValue

open Cert.ReferenceIdeal Idealize.ShloMosaic Idealize.ShloMosaic.ValueIdx
open Idealize.ShloMosaic.StableHlo.Predicate (toInt_ofNat_small)

/-! ## Words: a position inside an axis, read signed, is non-negative and below the axis length -/

/-- The word of a small number is not negative. -/
private theorem slt_zero_small (v : Nat) (hv : v < 2 ^ 31) : IntOp.cmpi .slt (BitVec.ofNat 32 v) 0#32 = 0#1 := by
  apply eq_zero_of_ne_one
  rw [IntOp.cmpi_slt, toInt_ofNat_small v hv]
  simp

/-- The word of a small number is at least zero. -/
private theorem sge_zero_small (v : Nat) (hv : v < 2 ^ 31) : IntOp.cmpi .sge (BitVec.ofNat 32 v) 0#32 = 1#1 := by
  rw [IntOp.cmpi_sge, toInt_ofNat_small v hv]
  simp

/-- The word of a position below 1024 is at most 1023. -/
private theorem sle_1023_small (v : Nat) (hv : v < 1024) : IntOp.cmpi .sle (BitVec.ofNat 32 v) 1023#32 = 1#1 := by
  rw [IntOp.cmpi_sle, toInt_ofNat_small v (by omega)]
  have : (1023#32 : BitVec 32).toInt = 1023 := by decide
  rw [this]
  omega

/-- A conjunction of bits all equal to one, started from one, is one. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-! ## The take along the last axis -/

/-- A table of positions inside the axis is not moved by the wrap of negative entries; as a column it reads the
    table's entry. -/
theorem wrapCol_apply (idx : IVec S1024 32) (k : Fin 1024) (v : Nat) (hv : v < 1024)
    (h : idx (ix1 k) = BitVec.ofNat 32 v) : wrapCol idx (ix2 k (0 : Fin 1)) = idx (ix1 k) := by
  unfold wrapCol
  refine (broadcastInDim_apply _ _ _ (ix2 k (0 : Fin 1)) (ix1 k) ?_).trans ?_
  · intro a
    match a with
    | ⟨0, _⟩ => rfl
  · show Scalar.select (IntOp.cmpi .slt (idx (ix1 k)) 0#32) _ _ = _
    rw [h, slt_zero_small v (by omega), select_zero]

/-- Every entry of a column of positions inside the axis passes the two range tests, so the conjunction over the
    column's one-element rows is one everywhere. -/
theorem inAxis_apply (v5 : IVec S1024x1 32) (hv : ∀ i, ∃ v, v < 1024 ∧ v5 i = BitVec.ofNat 32 v) (j : S1024.Idx) :
    inAxis v5 j = 1#1 := by
  unfold inAxis
  rw [Host.reduce_eq_foldl]
  refine foldl_andi_one _ _ fun i _ => ?_
  obtain ⟨v, hlt, hi⟩ := hv i
  show IntOp.andi (IntOp.cmpi .sge (v5 i) 0#32) (IntOp.cmpi .sle (v5 i) 1023#32) = 1#1
  rw [hi, sge_zero_small v (by omega), sle_1023_small v hlt]
  rfl

/-- The take through a table of positions inside the axis: entry (b, s, k) is the operand's at (b, s, f k). -/
theorem take_apply (y : FVec Ideal S8x8192x1024 .f32) (idx : IVec S1024 32) (f : Fin 1024 → Fin 1024)
    (h : ∀ k : Fin 1024, idx (ix1 k) = BitVec.ofNat 32 (f k).val) (b : Fin 8) (s : Fin 8192) (k : Fin 1024) :
    take y idx (ix3 b s k) = y (ix3 b s (f k)) := by
  have hcol : ∀ k : Fin 1024, wrapCol idx (ix2 k (0 : Fin 1)) = BitVec.ofNat 32 (f k).val := fun k =>
    (wrapCol_apply idx k (f k).val (f k).isLt (h k)).trans (h k)
  have hin : ∀ j, inAxis (wrapCol idx) j = 1#1 := inAxis_apply _ fun i => by
    obtain ⟨p, q, rfl⟩ : ∃ p q, i = ix2 p q := ⟨i 0, i 1, eq_ix2 i⟩
    obtain rfl : q = 0 := Subsingleton.elim _ _
    exact ⟨(f p).val, (f p).isLt, hcol p⟩
  unfold take
  show Scalar.select (inAxis (wrapCol idx) _) (Host.gather _ y (wrapCol idx) (ix3 b s k)) _ = _
  rw [hin, select_one]
  exact Cert.GatherDot.gather_last _ rfl rfl rfl rfl rfl rfl rfl y (wrapCol idx) f hcol b s k

/-! ## The dense weight -/

/-- A table of block coordinates inside the grid is not moved by the wrap of negative entries. -/
theorem wrap16_apply (t : IVec S64 32) (n : Fin 64) (v : Nat) (hv : v < 16) (h : t (ix1 n) = BitVec.ofNat 32 v) :
    wrap16 t (ix1 n) = t (ix1 n) := by
  unfold wrap16
  show Scalar.select (IntOp.cmpi .slt (t (ix1 n)) 0#32) _ _ = _
  rw [h, slt_zero_small v (by omega), select_zero]

/-- A vector kept as a column reads, at row n, the vector at n. -/
private theorem col64_apply (t : IVec S64 32) (n : Fin 64) :
    broadcastInDim S64x1 ![0] Facts₀.bcast_S64_S64x1_0 t (ix2 n (0 : Fin 1)) = t (ix1 n) := by
  refine broadcastInDim_apply _ _ _ (ix2 n (0 : Fin 1)) (ix1 n) ?_
  intro a
  match a with
  | ⟨0, _⟩ => rfl

/-- Column 0 of the cell table is the block-row table. -/
theorem cells_apply_row (br bc : IVec S64 32) (n : Fin 64) (v : Nat) (hv : v < 16) (h : br (ix1 n) = BitVec.ofNat 32 v) :
    cells br bc (ix2 n (0 : Fin 2)) = br (ix1 n) := by
  unfold cells
  refine (concatenate_pair_apply_left (t := S64x2) (s₁ := S64x1) (s₂ := S64x1) (1 : Fin 2) _ _ _ (ix2 n (0 : Fin 2)) rfl (ix2 n (0 : Fin 1)) ?_).trans ?_
  · intro b
    match b with
    | ⟨0, _⟩ => rfl
    | ⟨1, _⟩ => rfl
  · rw [col64_apply, wrap16_apply br n v hv h]

/-- Column 1 of the cell table is the block-column table. -/
theorem cells_apply_col (br bc : IVec S64 32) (n : Fin 64) (v : Nat) (hv : v < 16) (h : bc (ix1 n) = BitVec.ofNat 32 v) :
    cells br bc (ix2 n (1 : Fin 2)) = bc (ix1 n) := by
  unfold cells
  refine (concatenate_pair_apply_right (t := S64x2) (s₁ := S64x1) (s₂ := S64x1) (1 : Fin 2) _ _ _ (ix2 n (1 : Fin 2)) rfl rfl (ix2 n (0 : Fin 1)) ?_ ?_).trans ?_
  · intro b hb
    match b with
    | ⟨0, _⟩ => rfl
    | ⟨1, _⟩ => exact absurd rfl hb
  · rfl
  · rw [col64_apply, wrap16_apply bc n v hv h]

/-- The dense weight's entry (o, i): the matrix layout reads the grid of blocks at block row o / 64, block column
    i / 64, inside the block at (o mod 64, i mod 64); the blocks' cells being distinct, the scattered grid holds there
    the sum over the blocks sitting at that cell. -/
theorem weight_apply (wb : FVec Ideal S64x64x64 .f32) (br bc : IVec S64 32) {ip op : IVec S1024 32} (D : Cert.Spec.Dec ip op br bc)
    (o i : Fin 1024) : weight wb br bc (ix2 o i) = Cert.Spec.W wb D.brf D.bcf o i := by
  have hr : ∀ n : Fin 64, cells br bc (ix2 n (0 : Fin 2)) = BitVec.ofNat 32 (D.brf n).val := fun n =>
    (cells_apply_row br bc n _ (D.brf n).isLt (D.hbr n)).trans (D.hbr n)
  have hc : ∀ n : Fin 64, cells br bc (ix2 n (1 : Fin 2)) = BitVec.ofNat 32 (D.bcf n).val := fun n =>
    (cells_apply_col br bc n _ (D.bcf n).isLt (D.hbc n)).trans (D.hbc n)
  unfold weight
  refine (shapeCast_apply _ _ (ix2 o i)
    (ix4 (Cert.Spec.hi o) (Cert.Spec.lo o) (Cert.Spec.hi i) (Cert.Spec.lo i)) ?_).trans ?_
  · rw [Shape.rowMajor_val_four, Shape.rowMajor_val_two]
    show ((o.val / 64 * 64 + o.val % 64) * 16 + i.val / 64) * 64 + i.val % 64 = o.val * 1024 + i.val
    omega
  refine (transpose_apply _ _ _ (ix4 (Cert.Spec.hi o) (Cert.Spec.lo o) (Cert.Spec.hi i) (Cert.Spec.lo i))
    (ix4 (Cert.Spec.hi o) (Cert.Spec.hi i) (Cert.Spec.lo o) (Cert.Spec.lo i)) ?_).trans ?_
  · intro b
    match b with
    | ⟨0, _⟩ => rfl
    | ⟨1, _⟩ => rfl
    | ⟨2, _⟩ => rfl
    | ⟨3, _⟩ => rfl
  exact Cert.ScatterSet.scatter_cells _ rfl rfl rfl rfl _ (fun _ => Ideal.ofBits_zero_f32) (cells br bc) wb D.brf D.bcf
    hr hc D.hinj (Cert.Spec.hi o) (Cert.Spec.hi i) (Cert.Spec.lo o) (Cert.Spec.lo i)

/-! ## The linear layer and the result -/

/-- The linear layer at (b, s, o): the features' row times the weight's row o, plus the bias at o. -/
theorem linear_apply (xg : FVec Ideal S8x8192x1024 .f32) (w : FVec Ideal S1024x1024 .f32)
    (bias : FVec Ideal S1024 .f32) (b : Fin 8) (s : Fin 8192) (o : Fin 1024) :
    linear xg w bias (ix3 b s o) = (∑ k : Fin 1024, xg (ix3 b s k) * w (ix2 o k)) + bias (ix1 o) := by
  unfold linear
  refine (addf_apply _ _ _).trans ?_
  refine congrArg₂ (· + ·) (Cert.GatherDot.dot_last _ rfl rfl rfl rfl rfl rfl none xg w b s o) ?_
  refine (broadcastInDim_apply _ _ _ (ix3 b s o) (ix3 (0 : Fin 1) (0 : Fin 1) o) ?_).trans ?_
  · intro a
    match a with
    | ⟨0, _⟩ => rfl
    | ⟨1, _⟩ => rfl
    | ⟨2, _⟩ => rfl
  refine broadcastInDim_apply _ _ _ (ix3 (0 : Fin 1) (0 : Fin 1) o) (ix1 o) ?_
  intro a
  match a with
  | ⟨0, _⟩ => rfl

/-- The reference's result at (b, s, k'): the second take reads the linear layer at the permuted output position,
    whose contraction runs over the first take's gathered features and the dense weight's row there. -/
theorem result_apply (x : FVec Ideal S8x8192x1024 .f32) (ip op : IVec S1024 32) (wb : FVec Ideal S64x64x64 .f32)
    (br bc : IVec S64 32) (bias : FVec Ideal S1024 .f32) (D : Cert.Spec.Dec ip op br bc)
    (b : Fin 8) (s : Fin 8192) (k' : Fin 1024) :
    result x ip op wb br bc bias (ix3 b s k') = Cert.Spec.refOut x wb bias D.ipf D.opf D.brf D.bcf b s k' := by
  unfold result
  rw [take_apply _ op D.opf D.hop b s k', linear_apply]
  unfold Cert.Spec.refOut
  refine congrArg₂ (· + ·) (Finset.sum_congr rfl fun k _ => ?_) rfl
  rw [take_apply x ip D.ipf D.hip b s k, weight_apply wb br bc D]

end Cert.ReferenceIdeal.RefValue

end
-- ==== Proof.lean ====
/-
  Equivalence over the extended reals of a block-sparse permuted linear layer written two ways.

  Inputs: activations x [8, 8192, 1024], two tables of feature positions in_perm and out_perm [1024], 64 weight blocks
  of 64 × 64 with their cells (brow n, bcol n) in a 16 × 16 grid, and a bias [1024].  The precondition says that the
  floats are finite, that every integer is a position inside the axis it indexes, and that no two blocks share a cell.

  The reference gathers the features, x (b, s, in_perm k), builds the dense weight W by writing each block into its
  cell of a zero array, contracts, adds the bias, and gathers the outputs at out_perm k'.  The kernel program builds
  one-hot matrices of the tables, adds the blocks into their cells by a product with a one-hot matrix, folds both
  permutations into the weight by two more such products, M (i, k') = Σ_k [in_perm k = i] · W (out_perm k', k), permutes the
  bias the same way, and launches one dense product x · M plus the bias row, block of rows by block of rows.

  Every one-hot product collapses to a selection with no use of finiteness (0 · a = 0 and 1 · a = a on the extended
  reals); with the cells distinct, adding the blocks and writing the blocks give the same W; and
  Σ_i x i · M (i, k') = Σ_k x (in_perm k) · W (out_perm k', k) by distributing and exchanging the sums, which is where the
  finiteness of x and of the weight blocks is used (module Algebra).  The frames of the two kernel programs are the
  generated ones; the reference's frame is its run with the result forgotten.
-/
import proofs.«422159_j44427141710516_3_alg».proof.Defs
import proofs.«422159_j44427141710516_3_alg».proof.Proof.Gen.Kernel
import proofs.«422159_j44427141710516_3_alg».proof.Proof.Gen.Kernel.Frame
import proofs.«422159_j44427141710516_3_alg».proof.Proof.Gen.KernelIdeal
import proofs.«422159_j44427141710516_3_alg».proof.Proof.Gen.KernelIdeal.Frame
import proofs.«422159_j44427141710516_3_alg».proof.Proof.Gen.ReferenceIdeal
import proofs.«422159_j44427141710516_3_alg».proof.Proof.Gen.Pre_finite_inputs
import proofs.«422159_j44427141710516_3_alg».proof.Proof.Algebra
import proofs.«422159_j44427141710516_3_alg».proof.Proof.PreDecode
import proofs.«422159_j44427141710516_3_alg».proof.Proof.KerRun
import proofs.«422159_j44427141710516_3_alg».proof.Proof.KerRead
import proofs.«422159_j44427141710516_3_alg».proof.Proof.RefRun
import proofs.«422159_j44427141710516_3_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run (Cert.ReferenceIdeal.defs (F := Ideal)) _ _).mono (fun _ h c => (h c).2)
    (Cert.ReferenceIdeal.RefValue.run m ρ)

/-- The ideal pass rewrote nothing: there is nothing to preserve. -/
theorem preserves : Cert.preserves_Kernel_KernelIdeal := trivial

/-- Both programs end at the same array: element by element the kernel's closed form and the reference's, equal on
    real activations and real weight blocks. -/
theorem algebraic : Cert.algebraic_KernelIdeal_ReferenceIdeal := by
  intro m ρ m' ρ' hpre hagree
  refine ⟨fun c => Cert.KernelIdeal.KerValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KerValue.run m ρ, ?_⟩
  refine (θ_run (Cert.ReferenceIdeal.defs (F := Ideal)) _ _).mono (fun r h c => ⟨(h c).1.trans ?_, (h c).2⟩)
    (Cert.ReferenceIdeal.RefValue.run m' ρ')
  obtain ⟨a0, a1, a2, a3, a4, a5, a6⟩ := hagree c
  rw [a0, a1, a2, a3, a4, a5, a6]
  obtain ⟨hx, hw, ⟨D⟩⟩ := Cert.PreDecode.decode _ _ _ _ _ _ _ (hpre c)
  funext j
  obtain ⟨b, s, k', rfl⟩ : ∃ (b : Fin 8) (s : Fin 8192) (k' : Fin 1024), j = ix3 b s k' := ⟨j 0, j 1, j 2, eq_ix3 j⟩
  beta_reduce
  rw [Cert.ReferenceIdeal.RefValue.result_apply _ _ _ _ _ _ _ D, Cert.KernelIdeal.KerValue.result_apply _ _ _ _ _ _ _ D]
  exact (Cert.Algebra.kerOut_eq_refOut _ _ _ _ _ _ _ hx hw b s k').symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
